-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x1024 : Shape := ⟨2, ![512, 1024]⟩
abbrev S128x1024 : Shape := ⟨2, ![128, 1024]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S2048x1024, .bf16⟩
  | .local _ .vmem, ⟨13, _⟩ => ⟨S2048x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  inb_S2048x1024_S128x1024_0_0 : ∀ a, (![0, 0] : Fin 2 → Nat) a + S128x1024.size a ≤ S2048x1024.size a
  h_S128x1024 : 0 < S128x1024.numel
  reduces_S512x128_S512 : S512x128.Reduces [1] S512
  shapeCasts_S512_S512x1 : S512.ShapeCasts S512x1
  inb_S2048x1024_S128x1024_128_0 : ∀ a, (![128, 0] : Fin 2 → Nat) a + S128x1024.size a ≤ S2048x1024.size a
  inb_S2048x1024_S128x1024_256_0 : ∀ a, (![256, 0] : Fin 2 → Nat) a + S128x1024.size a ≤ S2048x1024.size a
  inb_S2048x1024_S128x1024_384_0 : ∀ a, (![384, 0] : Fin 2 → Nat) a + S128x1024.size a ≤ S2048x1024.size a
  inb_S2048x1024_S128x1024_512_0 : ∀ a, (![512, 0] : Fin 2 → Nat) a + S128x1024.size a ≤ S2048x1024.size a
  inb_S2048x1024_S128x1024_640_0 : ∀ a, (![640, 0] : Fin 2 → Nat) a + S128x1024.size a ≤ S2048x1024.size a
  inb_S2048x1024_S128x1024_768_0 : ∀ a, (![768, 0] : Fin 2 → Nat) a + S128x1024.size a ≤ S2048x1024.size a
  inb_S2048x1024_S128x1024_896_0 : ∀ a, (![896, 0] : Fin 2 → Nat) a + S128x1024.size a ≤ S2048x1024.size a
  inb_S2048x1024_S128x1024_1024_0 : ∀ a, (![1024, 0] : Fin 2 → Nat) a + S128x1024.size a ≤ S2048x1024.size a
  inb_S2048x1024_S128x1024_1152_0 : ∀ a, (![1152, 0] : Fin 2 → Nat) a + S128x1024.size a ≤ S2048x1024.size a
  inb_S2048x1024_S128x1024_1280_0 : ∀ a, (![1280, 0] : Fin 2 → Nat) a + S128x1024.size a ≤ S2048x1024.size a
  inb_S2048x1024_S128x1024_1408_0 : ∀ a, (![1408, 0] : Fin 2 → Nat) a + S128x1024.size a ≤ S2048x1024.size a
  inb_S2048x1024_S128x1024_1536_0 : ∀ a, (![1536, 0] : Fin 2 → Nat) a + S128x1024.size a ≤ S2048x1024.size a
  inb_S2048x1024_S128x1024_1664_0 : ∀ a, (![1664, 0] : Fin 2 → Nat) a + S128x1024.size a ≤ S2048x1024.size a
  inb_S2048x1024_S128x1024_1792_0 : ∀ a, (![1792, 0] : Fin 2 → Nat) a + S128x1024.size a ≤ S2048x1024.size a
  inb_S2048x1024_S128x1024_1920_0 : ∀ a, (![1920, 0] : Fin 2 → Nat) a + S128x1024.size a ≤ S2048x1024.size a
  broadcasts_S512x1_S512x128 : S512x1.Broadcasts S512x128
  broadcasts_S512x1_S512x1024 : S512x1.Broadcasts S512x1024
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S128x1024_S512x128_1_1_0_0_n_n_wf : DotDims.WF S512x1024 S128x1024 S512x128 [1] [1] [0] [0] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S2x2048x1024.size a
  hwx0_1 : ∀ i : grid0.Coords, EltTy.bits .f32 = 32 ∨ (Rect.block (s := S2x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S2x2048x1024.size a
  hwx0_8 : ∀ i : grid0.Coords, EltTy.bits .f32 = 32 ∨ (Rect.block (s := S2x2048x1024) S1x512x1024.size (cc0_transform_8 i) (hinb0_8 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2x2048x1024, .f32⟩
  | .hbm, ⟨9, _⟩ => ⟨S1x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x2048, .f32⟩
  | .hbm, ⟨21, _⟩ => ⟨S_, .f32⟩
  | .hbm, ⟨22, _⟩ => ⟨S2x2048, .f32⟩
  | .hbm, ⟨23, _⟩ => ⟨S_, .f32⟩
  | .hbm, ⟨24, _⟩ => ⟨S2x2048, .f32⟩
  | .hbm, ⟨25, _⟩ => ⟨S2x2048, .f32⟩
  | .hbm, ⟨26, _⟩ => ⟨S2x2048x1, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048, .f32⟩
  | .hbm, ⟨32, _⟩ => ⟨S2x2048x1, .f32⟩
  | .hbm, ⟨33, _⟩ => ⟨S2x2048x2048, .f32⟩
  | .hbm, ⟨34, _⟩ => ⟨S2x2048x2048, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  reducesTo_S2x2048x2048_S2x2048_d2 : S2x2048x2048.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x2048_0_1_2 : S2x2048x1.BroadcastsInDim S2x2048x2048 (![0, 1, 2] : Fin 3 → Fin S2x2048x2048.rank)
  dot_S2x2048x1024_S1024x1024_S2x2048x1024_2_0_01_1_n_n_wf : DotDims.WF S2x2048x1024 S1024x1024 S2x2048x1024 [2] [0] [0, 1] [1] [] []
  dot_S2x2048x1024_S2x2048x1024_S2x2048x2048_2_2_1_1_0_0_wf : DotDims.WF S2x2048x1024 S2x2048x1024 S2x2048x2048 [2] [2] [1] [1] [0] [0]
  dot_S2x2048x2048_S2x2048x1024_S2x2048x1024_2_1_1_2_0_0_wf : DotDims.WF S2x2048x2048 S2x2048x1024 S2x2048x1024 [2] [1] [1] [2] [0] [0]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x2048x1024_S2x2048x1024_S2x2048x2048_2_2_1_1_0_0 : DotDims S2x2048x1024 S2x2048x1024 S2x2048x2048 where
  lhsContracting := [2]
  rhsContracting := [2]
  lhsNonContracting := [1]
  rhsNonContracting := [1]
  lhsBatch := [0]
  rhsBatch := [0]
  wf := dot_S2x2048x1024_S2x2048x1024_S2x2048x2048_2_2_1_1_0_0_wf
def dot_S2x2048x2048_S2x2048x1024_S2x2048x1024_2_1_1_2_0_0 : DotDims S2x2048x2048 S2x2048x1024 S2x2048x1024 where
  lhsContracting := [2]
  rhsContracting := [1]
  lhsNonContracting := [1]
  rhsNonContracting := [2]
  lhsBatch := [0]
  rhsBatch := [0]
  wf := dot_S2x2048x2048_S2x2048x1024_S2x2048x1024_2_1_1_2_0_0_wf

class Facts : Prop extends Facts₀ where

variable [Facts]
-- ==== Proof.Softmax.lean ====
import Idealize.ShloMosaic.PureOps.Ideal
import Idealize.ShloMosaic.PureOps.IdealRules
import Idealize.ShloMosaic.Lib.ValueIdx

noncomputable section

open scoped BigOperators

namespace Cert.Attn

open Idealize.ShloMosaic Idealize.ShloMosaic.ValueIdx

/-! ## Real-valued extended reals -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨t, rfl⟩ := hb; exact ⟨r + t, (EReal.coe_add r t).symm⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## The 2048 columns as sixteen runs of 128 -/

/-- Column `128 j + c`: lane `c` of run `j`. -/
def ch (j : Fin 16) (c : Fin 128) : Fin 2048 :=
  ⟨128 * j.val + c.val, by have := j.isLt; have := c.isLt; omega⟩

/-- Every column is a lane of exactly one run. -/
def chEquiv : Fin 16 × Fin 128 ≃ Fin 2048 where
  toFun p := ch p.1 p.2
  invFun y := (⟨y.val / 128, by have := y.isLt; omega⟩, ⟨y.val % 128, Nat.mod_lt _ (by norm_num)⟩)
  left_inv p := by
    rcases p with ⟨j, c⟩
    have hj := j.isLt; have hc := c.isLt
    refine Prod.ext (Fin.ext ?_) (Fin.ext ?_)
    · show (128 * j.val + c.val) / 128 = j.val
      omega
    · show (128 * j.val + c.val) % 128 = c.val
      omega
  right_inv y := by
    refine Fin.ext ?_
    show 128 * (y.val / 128) + y.val % 128 = y.val
    omega

/-- A sum over the columns, run by run. -/
theorem sum_chunks {M : Type*} [AddCommMonoid M] (f : Fin 2048 → M) :
    ∑ y, f y = ∑ j : Fin 16, ∑ c : Fin 128, f (ch j c) := by
  rw [← Fintype.sum_prod_type' (fun j c => f (ch j c))]
  exact (Fintype.sum_equiv chEquiv (fun p => f (ch p.1 p.2)) f (fun _ => rfl)).symm

/-- Sixteen terms added first to last. -/
def sumL16 {M : Type*} [Add M] (a : Fin 16 → M) : M :=
  a 0 + a 1 + a 2 + a 3 + a 4 + a 5 + a 6 + a 7 + a 8 + a 9 + a 10 + a 11 + a 12 + a 13 + a 14 + a 15

/-- Sixteen terms joined by `max`, first to last. -/
def maxL16 (a : Fin 16 → EReal) : EReal :=
  max (max (max (max (max (max (max (max (max (max (max (max (max (max (max (a 0) (a 1)) (a 2)) (a 3)) (a 4)) (a 5)) (a 6))
    (a 7)) (a 8)) (a 9)) (a 10)) (a 11)) (a 12)) (a 13)) (a 14)) (a 15)

theorem sumL16_eq {M : Type*} [AddCommMonoid M] (a : Fin 16 → M) : sumL16 a = ∑ j, a j := by
  simp [sumL16, Fin.sum_univ_succ, add_assoc]

theorem maxL16_le_iff (a : Fin 16 → EReal) (b : EReal) : maxL16 a ≤ b ↔ ∀ j, a j ≤ b := by
  simp [maxL16, Fin.forall_fin_succ, max_le_iff, and_assoc]

/-! ## The two bit patterns the programs splat -/

/-- The pattern `0xFF800000` is minus infinity. -/
theorem ofBits_neg_inf : Ideal.ofBits .f32 0xFF800000#32 = ⊥ := by simp [Ideal.ofBits, Ideal.ieee]

/-- The pattern `0x3F800000` is one. -/
theorem ofBits_one : Ideal.ofBits .f32 0x3F800000#32 = 1 :=
  IdealRules.sign_bit.ideal_onePat .f32

/-! ## One row of softmax-weighted values, in the two arrangements

`s` is a row of 2048 scores and `v` a column of 2048 values. -/

/-- The row's maximum as the sixteen runs' maxima joined first to last. -/
def kMax (s : Fin 2048 → EReal) : EReal :=
  maxL16 fun j => (Finset.univ : Finset (Fin 128)).fold max ⊥ fun c => s (ch j c)

/-- The row's maximum as one fold over the columns, joined with minus infinity once more. -/
def rMax (s : Fin 2048 → EReal) : EReal :=
  max ⊥ ((Finset.univ : Finset (Fin 2048)).fold max ⊥ s)

/-- Run by run: the unnormalised weighted sum, times the reciprocal of the weights' sum. -/
def kRow (s v : Fin 2048 → EReal) : EReal :=
  sumL16 (fun j => ∑ c : Fin 128, Ideal.exp (s (ch j c) - kMax s) * v (ch j c))
    * Ideal.div 1 (sumL16 fun j => ∑ c : Fin 128, Ideal.exp (s (ch j c) - kMax s))

/-- Column by column: each weight divided by the weights' sum, then the weighted sum. -/
def rRow (s v : Fin 2048 → EReal) : EReal :=
  ∑ y : Fin 2048, Ideal.div (Ideal.exp (s y - rMax s)) (0 + ∑ y' : Fin 2048, Ideal.exp (s y' - rMax s)) * v y

/-! ## The attention layer, index by index -/

abbrev SX : Shape := ⟨3, ![2, 2048, 1024]⟩
abbrev SW : Shape := ⟨2, ![1024, 1024]⟩
abbrev SB : Shape := ⟨1, ![1024]⟩

/-- A linear layer at (n, r, d): row (n, r) of `a` against column `d` of `w`, plus the bias at `d`. -/
def lin (a : SX.Idx → EReal) (w : SW.Idx → EReal) (b : SB.Idx → EReal) (n : Fin 2) (r : Fin 2048) (d : Fin 1024) : EReal :=
  (∑ k : Fin 1024, a (ix3 n r k) * w (ix2 k d)) + b (ix1 d)

/-- The score of query row (n, r) against key row (n, y'). -/
def score (x y : SX.Idx → EReal) (wq wk : SW.Idx → EReal) (bq bk : SB.Idx → EReal) (n : Fin 2) (r y' : Fin 2048) : EReal :=
  ∑ d : Fin 1024, lin x wq bq n r d * lin y wk bk n y' d

/-- softmax(q kᵀ) v + x at every index (n, r, e), as the reference arranges it. -/
def G (x y : SX.Idx → EReal) (wq wk wv : SW.Idx → EReal) (bq bk bv : SB.Idx → EReal) : SX.Idx → EReal :=
  fun i => rRow (fun y' => score x y wq wk bq bk (i 0) (i 1) y') (fun y' => lin y wv bv (i 0) y' (i 2)) + x i

end Cert.Attn

end
-- ==== Proof.KernelBlock.lean ====
import proofs.«152684_g18038862643479_cont_sun_m_1161_29_alg».proof.Proof.Gen.KernelIdeal.Skeleton
import proofs.«152684_g18038862643479_cont_sun_m_1161_29_alg».proof.Proof.Softmax

noncomputable section

open scoped BigOperators

namespace Cert.KernelIdeal.Block

open Cert.KernelIdeal Cert.KernelIdeal.Gen Idealize.ShloMosaic Idealize.ShloMosaic.ValueIdx Cert.Attn

variable {F : FTy → Type} [FloatOps F]

/-- Rows `128 j … 128 j + 127` of a [2048, 1024] array: run `j`. -/
def rows (a : Vec F S2048x1024 .bf16) (j : Fin 16) : Vec F S128x1024 .bf16 :=
  fun i => a (ix2 (ch j (i 0)) (i 1))

/-- The scores of a block of 512 query rows against one run of 128 key rows. -/
def scoreC (q : FVec F S512x1024 .bf16) (kc : Vec F S128x1024 .bf16) : FVec F S512x128 .f32 :=
  matmul dot_S512x1024_S128x1024_S512x128_1_1_0_0_n_n none q kc (constant S512x128 .f32 0x00000000#32)

/-- A run's row maxima, as a column. -/
def cmaxC (sj : FVec F S512x128 .f32) : FVec F S512x1 .f32 :=
  shapeCast S512x1 (multiReduction .maximumf [1] S512 sj 0xFF800000#32 reduces_S512x128_S512 (.inl rfl) rfl) shapeCasts_S512_S512x1

/-- A run's weights: the exponential of the scores less the row maximum. -/
def expC (sj : FVec F S512x128 .f32) (mx : FVec F S512x1 .f32) : FVec F S512x128 .f32 :=
  exp (subf sj (broadcastTo S512x128 mx broadcasts_S512x1_S512x128))

/-- A run's row sums of weights, as a column. -/
def lsumC (ej : FVec F S512x128 .f32) : FVec F S512x1 .f32 :=
  shapeCast S512x1 (multiReduction .add [1] S512 ej 0x00000000#32 reduces_S512x128_S512 (.inl rfl) rfl) shapeCasts_S512_S512x1

/-- A run's weights against its 128 value rows. -/
def pvC (ej : FVec F S512x128 .f32) (vc : Vec F S128x1024 .bf16) : FVec F S512x1024 .f32 :=
  matmul dot_S512x128_S128x1024_S512x1024_1_0_0_1_n_n none (truncf .bf16 ej bitsLt_bf16_f32) vc (constant S512x1024 .f32 0x00000000#32)

/-- Sixteen vectors added first to last. -/
def vsumL16 {S : Shape} {φ : FTy} (a : Fin 16 → FVec F S φ) : FVec F S φ :=
  addf (addf (addf (addf (addf (addf (addf (addf (addf (addf (addf (addf (addf (addf (addf (a 0) (a 1)) (a 2)) (a 3)) (a 4)) (a 5))
    (a 6)) (a 7)) (a 8)) (a 9)) (a 10)) (a 11)) (a 12)) (a 13)) (a 14)) (a 15)

/-- Sixteen vectors joined by the elementwise maximum, first to last. -/
def vmaxL16 {S : Shape} {φ : FTy} (a : Fin 16 → FVec F S φ) : FVec F S φ :=
  maximumf (maximumf (maximumf (maximumf (maximumf (maximumf (maximumf (maximumf (maximumf (maximumf (maximumf (maximumf (maximumf
    (maximumf (maximumf (a 0) (a 1)) (a 2)) (a 3)) (a 4)) (a 5)) (a 6)) (a 7)) (a 8)) (a 9)) (a 10)) (a 11)) (a 12)) (a 13)) (a 14)) (a 15)

/-- The query block's scores against run `j` of the keys `ks`. -/
def sjOf (x0 : Vec F S1x512x1024 .f32) (x2 : Vec F S1024x1024 .f32) (x3 : Vec F S1x1024 .f32) (ks : Vec F S2048x1024 .bf16)
    (j : Fin 16) : FVec F S512x128 .f32 :=
  scoreC (k0_pay7 x0 x2 x3) (rows ks j)

/-- The block's row maxima over all sixteen runs. -/
def mxOf (x0 : Vec F S1x512x1024 .f32) (x2 : Vec F S1024x1024 .f32) (x3 : Vec F S1x1024 .f32) (ks : Vec F S2048x1024 .bf16) :
    FVec F S512x1 .f32 :=
  vmaxL16 fun j => cmaxC (sjOf x0 x2 x3 ks j)

/-- The block's weights on run `j`. -/
def ejOf (x0 : Vec F S1x512x1024 .f32) (x2 : Vec F S1024x1024 .f32) (x3 : Vec F S1x1024 .f32) (ks : Vec F S2048x1024 .bf16)
    (j : Fin 16) : FVec F S512x128 .f32 :=
  expC (sjOf x0 x2 x3 ks j) (mxOf x0 x2 x3 ks)

/-- WHAT ONE GRID POINT STORES: from the query block `x0`, the query weights `x2` and bias `x3`, and the projected keys `ks` and
    values `vs` the scratch holds — the weighted values summed run by run, times the reciprocal of the weights' sum, plus the
    query block. -/
def attnBlock (x0 : Vec F S1x512x1024 .f32) (x2 : Vec F S1024x1024 .f32) (x3 : Vec F S1x1024 .f32)
    (ks vs : Vec F S2048x1024 .bf16) : FVec F S1x512x1024 .f32 :=
  shapeCast S1x512x1024
    (addf
      (mulf (vsumL16 fun j => pvC (ejOf x0 x2 x3 ks j) (rows vs j))
        (broadcastTo S512x1024
          (divf (broadcast S512x1 (Scalar.ofBits .f32 0x3F800000#32)) (vsumL16 fun j => lsumC (ejOf x0 x2 x3 ks j)))
          broadcasts_S512x1_S512x1024))
      (k0_pay6 x0))
    shapeCasts_S512x1024_S1x512x1024

end Cert.KernelIdeal.Block

end
-- ==== Proof.Pieces.lean ====
/-
  What one grid point leaves behind, as values. The grid is (batch, query block): eight points, four to a batch.
  At a batch's first point the body projects the batch's `y` block into two scratch buffers — the keys `y·Wk + bk`
  and the values `y·Wv + bv` — and every point then forms its query block's attention row against those buffers,
  reading them back sixteen runs of 128 rows at a time. Here each thing a point writes is read back as ONE value:
  the two scratch buffers as the projections of the staged blocks, and the output block as `attnBlock` of the
  query block and of the scratch contents — the just-written projections at a batch's first point, whatever the
  point before left at the others. A load of rows `128 j … 128 j + 127` of a buffer, whether the buffer holds a
  given array or has just been stored whole, is run `j` of that array.
-/
import proofs.«152684_g18038862643479_cont_sun_m_1161_29_alg».proof.Proof.Gen.KernelIdeal.Frame
import proofs.«152684_g18038862643479_cont_sun_m_1161_29_alg».proof.Proof.KernelBlock
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Block Idealize.ShloMosaic Idealize.ShloMosaic.TcCoe Idealize.SL.Sem
open Idealize.ShloMosaic.ValueIdx Cert.Attn

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the 128 rows from row `128 j` of a [2048, 1024] buffer reads run `j` of its contents. -/
theorem ld_rows (xs : Vec F S2048x1024 .bf16) (j : Fin 16) (off : Fin 2 → Nat) (hoff : off = ![128 * j.val, 0])
    (inb : ∀ a, off a + S128x1024.size a ≤ S2048x1024.size a) :
    View.ld xs (Rect.unit (s := S2048x1024) off S128x1024.size inb) = rows xs j := by
  subst hoff
  funext x
  unfold rows
  show xs _ = xs _
  congr 1
  funext a
  apply Fin.ext
  match a with
  | ⟨0, _⟩ => show 128 * j.val + 1 * (x 0).val = 128 * j.val + (x 0).val; omega
  | ⟨1, _⟩ => show 0 + 1 * (x 1).val = (x 1).val; omega

/-- A load of run `j`'s rows after ONE store of the whole buffer reads run `j` of the stored payload. -/
theorem readCov_rows {sig' : RefSig} {κ : Kind} {sp : Space} (v : View sig' κ sp S2048x1024 .bf16) (w : Vec F S2048x1024 .bf16)
    (inbW : ∀ a, (![0, 0] : Fin 2 → Nat) a + S2048x1024.size a ≤ S2048x1024.size a)
    (j : Fin 16) (off : Fin 2 → Nat) (hoff : off = ![128 * j.val, 0])
    (inb : ∀ a, off a + S128x1024.size a ≤ S2048x1024.size a) :
    v.readCov [(⟨Rect.unit (s := S2048x1024) ![0, 0] S2048x1024.size inbW, w⟩ : View.Piece (Elt F) S2048x1024 .bf16)]
        (Rect.unit (s := S2048x1024) off S128x1024.size inb).toLoadRect
      = rows w j := by
  rw [View.readCov_eq_canon_ld _ _ _ (fun y => ⟨_, List.mem_singleton_self _, View.mem_set_unit_zero hz2 inbW y⟩),
    View.canon_unit_zero hz2]
  exact ld_rows w j off hoff inb

/-- At a batch's first point the keys' scratch is left holding the key projection of the staged `y` block. -/
theorem sA0 (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x512x1024 .f32) (x1 : Vec F S1x2048x1024 .f32) (x2 : Vec F S1024x1024 .f32) (x3 : Vec F S1x1024 .f32) (x4 : Vec F S1024x1024 .f32) (x5 : Vec F S1x1024 .f32) (x6 : Vec F S1024x1024 .f32) (x7 : Vec F S1x1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg3.read_unread, harg6.read_unread, harg7.read_unread,
    View.ld_unit_zero (S := S1x2048x1024) hz3, View.ld_unit_zero (S := S1024x1024) hz2, View.ld_unit_zero (S := S1x1024) hz2]

/-- … and the values' scratch the value projection of the same block. -/
theorem sA1 (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x512x1024 .f32) (x1 : Vec F S1x2048x1024 .f32) (x2 : Vec F S1024x1024 .f32) (x3 : Vec F S1x1024 .f32) (x4 : Vec F S1024x1024 .f32) (x5 : Vec F S1x1024 .f32) (x6 : Vec F S1024x1024 .f32) (x7 : Vec F S1x1024 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay5 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg3.read_unread, harg8.read_unread, harg9.read_unread,
    View.ld_unit_zero (S := S1x2048x1024) hz3, View.ld_unit_zero (S := S1024x1024) hz2, View.ld_unit_zero (S := S1x1024) hz2]

/-- At a point that is not a batch's first, the output block is `attnBlock` of the query block and of what the scratch
    buffers hold (`xs0` the keys, `xs1` the values): one covering store, its thirty-two row loads each a run of the scratch. -/
theorem oB (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2048x1024 .bf16) (harg11 : arg11.IsWhole) (arg12 : Memref sig .tc .vmem S2048x1024 .bf16) (harg12 : arg12.IsWhole) (hc0 : ¬cond0_0 i) (x0 : Vec F S1x512x1024 .f32) (x1 : Vec F S1x2048x1024 .f32) (x2 : Vec F S1024x1024 .f32) (x3 : Vec F S1x1024 .f32) (x4 : Vec F S1024x1024 .f32) (x5 : Vec F S1x1024 .f32) (x6 : Vec F S1024x1024 .f32) (x7 : Vec F S1x1024 .f32) (xs0 xs1 : Vec F S2048x1024 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = attnBlock x0 x2 x3 xs0 xs1 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz3]
  simp only [View.readAt_eq_ld, harg2.read_unread, harg4.read_unread, harg5.read_unread, harg11.read_unread, harg12.read_unread,
    View.ld_unit_zero (S := S1x512x1024) hz3, View.ld_unit_zero (S := S1024x1024) hz2, View.ld_unit_zero (S := S1x1024) hz2,
    ld_rows xs0 0 ![0, 0] rfl, ld_rows xs0 1 ![128, 0] rfl, ld_rows xs0 2 ![256, 0] rfl, ld_rows xs0 3 ![384, 0] rfl, ld_rows xs0 4 ![512, 0] rfl, ld_rows xs0 5 ![640, 0] rfl, ld_rows xs0 6 ![768, 0] rfl, ld_rows xs0 7 ![896, 0] rfl, ld_rows xs0 8 ![1024, 0] rfl, ld_rows xs0 9 ![1152, 0] rfl, ld_rows xs0 10 ![1280, 0] rfl, ld_rows xs0 11 ![1408, 0] rfl, ld_rows xs0 12 ![1536, 0] rfl, ld_rows xs0 13 ![1664, 0] rfl, ld_rows xs0 14 ![1792, 0] rfl, ld_rows xs0 15 ![1920, 0] rfl,
    ld_rows xs1 0 ![0, 0] rfl, ld_rows xs1 1 ![128, 0] rfl, ld_rows xs1 2 ![256, 0] rfl, ld_rows xs1 3 ![384, 0] rfl, ld_rows xs1 4 ![512, 0] rfl, ld_rows xs1 5 ![640, 0] rfl, ld_rows xs1 6 ![768, 0] rfl, ld_rows xs1 7 ![896, 0] rfl, ld_rows xs1 8 ![1024, 0] rfl, ld_rows xs1 9 ![1152, 0] rfl, ld_rows xs1 10 ![1280, 0] rfl, ld_rows xs1 11 ![1408, 0] rfl, ld_rows xs1 12 ![1536, 0] rfl, ld_rows xs1 13 ![1664, 0] rfl, ld_rows xs1 14 ![1792, 0] rfl, ld_rows xs1 15 ![1920, 0] rfl]
  rfl

/-- At a batch's first point the output block is `attnBlock` of the query block and of the two projections the same
    point has just stored: the row loads read the stored payloads back. -/
theorem oA (c : Dev nD) (i : grid0.Coords) (arg2 : Memref sig .tc .vmem S1x512x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S2048x1024 .bf16) (harg11 : arg11.IsWhole) (arg12 : Memref sig .tc .vmem S2048x1024 .bf16) (harg12 : arg12.IsWhole) (hc0 : cond0_0 i) (x0 : Vec F S1x512x1024 .f32) (x1 : Vec F S1x2048x1024 .f32) (x2 : Vec F S1024x1024 .f32) (x3 : Vec F S1x1024 .f32) (x4 : Vec F S1024x1024 .f32) (x5 : Vec F S1x1024 .f32) (x6 : Vec F S1024x1024 .f32) (x7 : Vec F S1x1024 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = attnBlock x0 x2 x3 (k0_pay4 x1 x4 x5) (k0_pay5 x1 x6 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1x512x1024) hz3, View.ld_unit_zero (S := S1x2048x1024) hz3, View.ld_unit_zero (S := S1024x1024) hz2, View.ld_unit_zero (S := S1x1024) hz2,
    readCov_rows arg11.view (k0_pay4 x1 x4 x5) _ 0 ![0, 0] rfl, readCov_rows arg11.view (k0_pay4 x1 x4 x5) _ 1 ![128, 0] rfl, readCov_rows arg11.view (k0_pay4 x1 x4 x5) _ 2 ![256, 0] rfl, readCov_rows arg11.view (k0_pay4 x1 x4 x5) _ 3 ![384, 0] rfl, readCov_rows arg11.view (k0_pay4 x1 x4 x5) _ 4 ![512, 0] rfl, readCov_rows arg11.view (k0_pay4 x1 x4 x5) _ 5 ![640, 0] rfl, readCov_rows arg11.view (k0_pay4 x1 x4 x5) _ 6 ![768, 0] rfl, readCov_rows arg11.view (k0_pay4 x1 x4 x5) _ 7 ![896, 0] rfl, readCov_rows arg11.view (k0_pay4 x1 x4 x5) _ 8 ![1024, 0] rfl, readCov_rows arg11.view (k0_pay4 x1 x4 x5) _ 9 ![1152, 0] rfl, readCov_rows arg11.view (k0_pay4 x1 x4 x5) _ 10 ![1280, 0] rfl, readCov_rows arg11.view (k0_pay4 x1 x4 x5) _ 11 ![1408, 0] rfl, readCov_rows arg11.view (k0_pay4 x1 x4 x5) _ 12 ![1536, 0] rfl, readCov_rows arg11.view (k0_pay4 x1 x4 x5) _ 13 ![1664, 0] rfl, readCov_rows arg11.view (k0_pay4 x1 x4 x5) _ 14 ![1792, 0] rfl, readCov_rows arg11.view (k0_pay4 x1 x4 x5) _ 15 ![1920, 0] rfl,
    readCov_rows arg12.view (k0_pay5 x1 x6 x7) _ 0 ![0, 0] rfl, readCov_rows arg12.view (k0_pay5 x1 x6 x7) _ 1 ![128, 0] rfl, readCov_rows arg12.view (k0_pay5 x1 x6 x7) _ 2 ![256, 0] rfl, readCov_rows arg12.view (k0_pay5 x1 x6 x7) _ 3 ![384, 0] rfl, readCov_rows arg12.view (k0_pay5 x1 x6 x7) _ 4 ![512, 0] rfl, readCov_rows arg12.view (k0_pay5 x1 x6 x7) _ 5 ![640, 0] rfl, readCov_rows arg12.view (k0_pay5 x1 x6 x7) _ 6 ![768, 0] rfl, readCov_rows arg12.view (k0_pay5 x1 x6 x7) _ 7 ![896, 0] rfl, readCov_rows arg12.view (k0_pay5 x1 x6 x7) _ 8 ![1024, 0] rfl, readCov_rows arg12.view (k0_pay5 x1 x6 x7) _ 9 ![1152, 0] rfl, readCov_rows arg12.view (k0_pay5 x1 x6 x7) _ 10 ![1280, 0] rfl, readCov_rows arg12.view (k0_pay5 x1 x6 x7) _ 11 ![1408, 0] rfl, readCov_rows arg12.view (k0_pay5 x1 x6 x7) _ 12 ![1536, 0] rfl, readCov_rows arg12.view (k0_pay5 x1 x6 x7) _ 13 ![1664, 0] rfl, readCov_rows arg12.view (k0_pay5 x1 x6 x7) _ 14 ![1792, 0] rfl, readCov_rows arg12.view (k0_pay5 x1 x6 x7) _ 15 ![1920, 0] rfl]
  rfl

end Cert.KernelIdeal.Pieces

end
-- ==== Proof.KernelArrays.lean ====
/-
  The kernel's eight grid points against the arrays. Point `t` is (batch `t / 4`, query block `t % 4`): it stages rows
  `512 (t % 4) … 512 (t % 4) + 511` of batch `t / 4` of `x`, the whole of batch `t / 4` of `y`, and the three weight
  matrices and the three biases whole (each bias as the [1, 1024] row the host reshaped it to). Here each staged
  block is read at an index of its array, and what a point leaves in the output's buffer is `attnBlock` of its
  query block and of what the two scratch buffers hold after that same point — at a batch's first point the
  projections just stored, at the others what the point before left.
-/
import proofs.«152684_g18038862643479_cont_sun_m_1161_29_alg».proof.Proof.Gen.KernelIdeal.Value
import proofs.«152684_g18038862643479_cont_sun_m_1161_29_alg».proof.Proof.Pieces
import Idealize.ShloMosaic.Lib.Pipeline.Value
import Idealize.ShloMosaic.Lib.StableHlo.Run
import Idealize.ShloMosaic.Lib.ValueLayout

set_option maxRecDepth 16384

noncomputable section

namespace Cert.KernelIdeal.Arrays

open Cert.KernelIdeal Cert.KernelIdeal.Gen Cert.KernelIdeal.Block Cert.KernelIdeal.Pieces
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ)

/-- The eight points' block indices, decided over the grid: the query block and the output block move with (batch, block),
    the `y` block with the batch, the weights and biases stay. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx8 : ∀ t : Fin cfg0.N, win0_8.index t (0 : Fin 3) = t.val / 4 ∧ win0_8.index t (1 : Fin 3) = t.val % 4 ∧ win0_8.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem lt8 (t : Fin cfg0.N) : t.val < 8 := lt_of_lt_of_eq t.isLt (show cfg0.N = 8 from N_0)

/-- The batch of point `t`. -/
def bOf (t : Fin cfg0.N) : Fin 2 := ⟨t.val / 4, by have := lt8 t; omega⟩
/-- Row `r` of point `t`'s query block, as a row of the array. -/
def rowOf (t : Fin cfg0.N) (r : Fin 512) : Fin 2048 := ⟨512 * (t.val % 4) + r.val, by have := r.isLt; omega⟩

/-! ## The staged blocks, each over its literal shape -/

abbrev xblk (c : Dev nD) (t : Fin cfg0.N) : Vec Ideal S1x512x1024 .f32 := iblk m c 0 t
abbrev yblk (c : Dev nD) (t : Fin cfg0.N) : Vec Ideal S1x2048x1024 .f32 := iblk m c 1 t
abbrev wqb (c : Dev nD) (t : Fin cfg0.N) : Vec Ideal S1024x1024 .f32 := iblk m c 2 t
abbrev bqb (c : Dev nD) (t : Fin cfg0.N) : Vec Ideal S1x1024 .f32 := iblk m c 3 t
abbrev wkb (c : Dev nD) (t : Fin cfg0.N) : Vec Ideal S1024x1024 .f32 := iblk m c 4 t
abbrev bkb (c : Dev nD) (t : Fin cfg0.N) : Vec Ideal S1x1024 .f32 := iblk m c 5 t
abbrev wvb (c : Dev nD) (t : Fin cfg0.N) : Vec Ideal S1024x1024 .f32 := iblk m c 6 t
abbrev bvb (c : Dev nD) (t : Fin cfg0.N) : Vec Ideal S1x1024 .f32 := iblk m c 7 t

/-- The query block at (0, r, k) is `x` at (batch, 512·block + r, k). -/
theorem xblk_apply (c : Dev nD) (t : Fin cfg0.N) (r : Fin 512) (k : Fin 1024) :
    xblk m c t (ix3 (0 : Fin 1) r k) = m ((c : Thread nD τ).loc main_arg0) (ix3 (bOf t) (rowOf t r) k) := by
  obtain ⟨e0, e1, e2⟩ := idx0 t
  show V m c main_arg0 (((cfg0.win 0).blk t).view.emb (ix3 (0 : Fin 1) r k)) = _
  rw [V_main_arg0]
  congr 1
  funext a; apply Fin.ext
  match a with
  | ⟨0, _⟩ => show win0_0.index t (0 : Fin 3) * 1 + 1 * (0 : Fin 1).val = t.val / 4; rw [e0]; simp
  | ⟨1, _⟩ => show win0_0.index t (1 : Fin 3) * 512 + 1 * r.val = 512 * (t.val % 4) + r.val; rw [e1]; omega
  | ⟨2, _⟩ => show win0_0.index t (2 : Fin 3) * 1024 + 1 * k.val = k.val; rw [e2]; omega

/-- The `y` block at (0, y', k) is `y` at (batch, y', k). -/
theorem yblk_apply (c : Dev nD) (t : Fin cfg0.N) (y' : Fin 2048) (k : Fin 1024) :
    yblk m c t (ix3 (0 : Fin 1) y' k) = m ((c : Thread nD τ).loc main_arg1) (ix3 (bOf t) y' k) := by
  obtain ⟨e0, e1, e2⟩ := idx1 t
  show V m c main_arg1 (((cfg0.win 1).blk t).view.emb (ix3 (0 : Fin 1) y' k)) = _
  rw [V_main_arg1]
  congr 1
  funext a; apply Fin.ext
  match a with
  | ⟨0, _⟩ => show win0_1.index t (0 : Fin 3) * 1 + 1 * (0 : Fin 1).val = t.val / 4; rw [e0]; simp
  | ⟨1, _⟩ => show win0_1.index t (1 : Fin 3) * 2048 + 1 * y'.val = y'.val; rw [e1]; omega
  | ⟨2, _⟩ => show win0_1.index t (2 : Fin 3) * 1024 + 1 * k.val = k.val; rw [e2]; omega

/-! ## The weights, staged whole -/

theorem wqb_apply (c : Dev nD) (t : Fin cfg0.N) (k d : Fin 1024) :
    wqb m c t (ix2 k d) = m ((c : Thread nD τ).loc main_arg2) (ix2 k d) := by
  obtain ⟨e0, e1⟩ := idx2 t
  show V m c main_arg2 (((cfg0.win 2).blk t).view.emb (ix2 k d)) = _
  rw [V_main_arg2]
  congr 1
  funext a; apply Fin.ext
  match a with
  | ⟨0, _⟩ => show win0_2.index t (0 : Fin 2) * 1024 + 1 * k.val = k.val; rw [e0]; omega
  | ⟨1, _⟩ => show win0_2.index t (1 : Fin 2) * 1024 + 1 * d.val = d.val; rw [e1]; omega

theorem wkb_apply (c : Dev nD) (t : Fin cfg0.N) (k d : Fin 1024) :
    wkb m c t (ix2 k d) = m ((c : Thread nD τ).loc main_arg4) (ix2 k d) := by
  obtain ⟨e0, e1⟩ := idx4 t
  show V m c main_arg4 (((cfg0.win 4).blk t).view.emb (ix2 k d)) = _
  rw [V_main_arg4]
  congr 1
  funext a; apply Fin.ext
  match a with
  | ⟨0, _⟩ => show win0_4.index t (0 : Fin 2) * 1024 + 1 * k.val = k.val; rw [e0]; omega
  | ⟨1, _⟩ => show win0_4.index t (1 : Fin 2) * 1024 + 1 * d.val = d.val; rw [e1]; omega

theorem wvb_apply (c : Dev nD) (t : Fin cfg0.N) (k d : Fin 1024) :
    wvb m c t (ix2 k d) = m ((c : Thread nD τ).loc main_arg6) (ix2 k d) := by
  obtain ⟨e0, e1⟩ := idx6 t
  show V m c main_arg6 (((cfg0.win 6).blk t).view.emb (ix2 k d)) = _
  rw [V_main_arg6]
  congr 1
  funext a; apply Fin.ext
  match a with
  | ⟨0, _⟩ => show win0_6.index t (0 : Fin 2) * 1024 + 1 * k.val = k.val; rw [e0]; omega
  | ⟨1, _⟩ => show win0_6.index t (1 : Fin 2) * 1024 + 1 * d.val = d.val; rw [e1]; omega

/-! ## The biases: each a [1024] argument the host reshapes to a [1, 1024] row before the call -/

/-- The row the call stages is the host's reshape of the bias. -/
theorem V_main_v0 (c : Dev nD) :
    (V m c main_v0 : S1x1024.Idx → EReal) = shapeCast S1x1024 (m ((c : Thread nD τ).loc main_arg3)) shapeCasts_S1024_S1x1024 := by
  dsimp only [V, hostOps0]
  after_results
  rfl

theorem bqb_apply (c : Dev nD) (t : Fin cfg0.N) (d : Fin 1024) :
    bqb m c t (ix2 (0 : Fin 1) d) = m ((c : Thread nD τ).loc main_arg3) (ix1 d) := by
  obtain ⟨e0, e1⟩ := idx3 t
  have he : ((cfg0.win 3).blk t).view.emb (ix2 (0 : Fin 1) d) = ix2 (0 : Fin 1) d := by
    funext a; apply Fin.ext
    match a with
    | ⟨0, _⟩ => show win0_3.index t (0 : Fin 2) * 1 + 1 * (0 : Fin 1).val = (0 : Fin 1).val; rw [e0]; simp
    | ⟨1, _⟩ => show win0_3.index t (1 : Fin 2) * 1024 + 1 * d.val = d.val; rw [e1]; omega
  show V m c main_v0 (((cfg0.win 3).blk t).view.emb (ix2 (0 : Fin 1) d)) = _
  rw [he, V_main_v0]
  exact shapeCast_a_1a_apply _ _ 0 d

/-- The row the call stages is the host's reshape of the bias. -/
theorem V_main_v1 (c : Dev nD) :
    (V m c main_v1 : S1x1024.Idx → EReal) = shapeCast S1x1024 (m ((c : Thread nD τ).loc main_arg5)) shapeCasts_S1024_S1x1024 := by
  dsimp only [V, hostOps0]
  after_results
  rfl

theorem bkb_apply (c : Dev nD) (t : Fin cfg0.N) (d : Fin 1024) :
    bkb m c t (ix2 (0 : Fin 1) d) = m ((c : Thread nD τ).loc main_arg5) (ix1 d) := by
  obtain ⟨e0, e1⟩ := idx5 t
  have he : ((cfg0.win 5).blk t).view.emb (ix2 (0 : Fin 1) d) = ix2 (0 : Fin 1) d := by
    funext a; apply Fin.ext
    match a with
    | ⟨0, _⟩ => show win0_5.index t (0 : Fin 2) * 1 + 1 * (0 : Fin 1).val = (0 : Fin 1).val; rw [e0]; simp
    | ⟨1, _⟩ => show win0_5.index t (1 : Fin 2) * 1024 + 1 * d.val = d.val; rw [e1]; omega
  show V m c main_v1 (((cfg0.win 5).blk t).view.emb (ix2 (0 : Fin 1) d)) = _
  rw [he, V_main_v1]
  exact shapeCast_a_1a_apply _ _ 0 d

/-- The row the call stages is the host's reshape of the bias. -/
theorem V_main_v2 (c : Dev nD) :
    (V m c main_v2 : S1x1024.Idx → EReal) = shapeCast S1x1024 (m ((c : Thread nD τ).loc main_arg7)) shapeCasts_S1024_S1x1024 := by
  dsimp only [V, hostOps0]
  after_results
  rfl

theorem bvb_apply (c : Dev nD) (t : Fin cfg0.N) (d : Fin 1024) :
    bvb m c t (ix2 (0 : Fin 1) d) = m ((c : Thread nD τ).loc main_arg7) (ix1 d) := by
  obtain ⟨e0, e1⟩ := idx7 t
  have he : ((cfg0.win 7).blk t).view.emb (ix2 (0 : Fin 1) d) = ix2 (0 : Fin 1) d := by
    funext a; apply Fin.ext
    match a with
    | ⟨0, _⟩ => show win0_7.index t (0 : Fin 2) * 1 + 1 * (0 : Fin 1).val = (0 : Fin 1).val; rw [e0]; simp
    | ⟨1, _⟩ => show win0_7.index t (1 : Fin 2) * 1024 + 1 * d.val = d.val; rw [e1]; omega
  show V m c main_v2 (((cfg0.win 7).blk t).view.emb (ix2 (0 : Fin 1) d)) = _
  rw [he, V_main_v2]
  exact shapeCast_a_1a_apply _ _ 0 d

/-! ## What each point leaves -/

/-- After any point the output's buffer holds `attnBlock` of the point's query block, the query weights and bias, and
    what the two scratch buffers hold after the same point. -/
theorem out_eq (c : Dev nD) (t : Fin cfg0.N) :
    (outsAt0 m c t.val t.isLt).1
      = attnBlock (xblk m c t) (wqb m c t) (bqb m c t) (outsAt0 m c t.val t.isLt).2.1 (outsAt0 m c t.val t.isLt).2.2 := by
  by_cases h0 : t.val % 4 = 0
  · rw [outsAt0_A m c t h0]
    dsimp only
    rw [sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t),
      sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)]
    exact oA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)
  · rw [outsAt0_B m c t h0]
    dsimp only
    exact oB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) _ _

/-- At a batch's first point the scratch buffers are left holding the projections of the point's `y` block. -/
theorem scratch_first (c : Dev nD) (t : Fin cfg0.N) (h0 : t.val % 4 = 0) :
    (outsAt0 m c t.val t.isLt).2.1 = k0_pay4 (yblk m c t) (wkb m c t) (bkb m c t)
    ∧ (outsAt0 m c t.val t.isLt).2.2 = k0_pay5 (yblk m c t) (wvb m c t) (bvb m c t) := by
  rw [outsAt0_A m c t h0]
  dsimp only
  exact ⟨sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t),
    sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)⟩

/-- At any other point they hold what the point before left. -/
theorem scratch_next (c : Dev nD) (n : ℕ) (hn : n + 1 < cfg0.N) (h0 : ¬(n + 1) % 4 = 0) :
    (outsAt0 m c (n + 1) hn).2.1 = (outsAt0 m c n (Nat.lt_of_succ_lt hn)).2.1
    ∧ (outsAt0 m c (n + 1) hn).2.2 = (outsAt0 m c n (Nat.lt_of_succ_lt hn)).2.2 := by
  rw [outsAt0_B m c ⟨n + 1, hn⟩ h0]
  exact ⟨rfl, rfl⟩

end Cert.KernelIdeal.Arrays

end
-- ==== Proof.KernelBlockAt.lean ====
import proofs.«152684_g18038862643479_cont_sun_m_1161_29_alg».proof.Proof.KernelBlock
import proofs.«152684_g18038862643479_cont_sun_m_1161_29_alg».proof.Proof.Softmax
import Idealize.ShloMosaic.Lib.ValueIdx
import Idealize.ShloMosaic.Lib.ValueLayout
import Idealize.ShloMosaic.Lib.Pipeline.Value
import Idealize.ShloMosaic.PureOps.Ideal.Laws

/-!
# What one grid point stores, read at an index

`attnBlock` is a term of whole-vector operations. Here each operation is read at one index, at the ideal
values, where a float is an extended real and every operation is exact: a matrix product is a sum of
products over the contraction coordinate, a lane reduction a sum or a fold of `max` over the lane
coordinate, a layout operation its operand at one index, a pointwise operation the extended reals' own.
Put together, entry (0, r, e) of the block is one row of softmax-weighted values in the run-by-run
arrangement `Cert.Attn.kRow`, plus the query block's entry.
-/

noncomputable section

open scoped BigOperators

namespace Cert.KernelIdeal.Block

open Cert.KernelIdeal Cert.KernelIdeal.Gen Idealize.ShloMosaic Idealize.ShloMosaic.ValueIdx Cert.Attn

namespace At

/-! ## Two keepdims layout forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three matrix products -/

/-! ### The query projection: `[512, 1024] × [1024, 1024]`, contracting the left operand's columns with the right's rows -/

theorem lhs_q_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_q_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_q_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_q_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (r, d) of the product into the zero splat: row `r` of the left operand against column `d` of the right. -/
theorem matmul_q_apply (a : FVec Ideal S512x1024 .bf16) (w : FVec Ideal S1024x1024 .bf16) (r : Fin 512) (d : Fin 1024) :
    matmul dot_S512x1024_S1024x1024_S512x1024_1_0_0_1_n_n none a w (constant (F := Ideal) S512x1024 .f32 0x00000000#32) (ix2 r d)
      = ∑ k : Fin 1024, a (ix2 r k) * w (ix2 k d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r d) ((contrEquiv1 dot_S512x1024_S1024x1024_S512x1024_1_0_0_1_n_n 1024 rfl rfl).symm k) = ix2 r k := funext fun ax => Fin.ext (by
    match ax with
    | ⟨0, _⟩ => exact lhs_q_0 _ _
    | ⟨1, _⟩ => exact (lhs_q_1 _ _).trans hk)
  have er : dot_S512x1024_S1024x1024_S512x1024_1_0_0_1_n_n.rhsIdx (ix2 r d) ((contrEquiv1 dot_S512x1024_S1024x1024_S512x1024_1_0_0_1_n_n 1024 rfl rfl).symm k) = ix2 k d := funext fun ax => Fin.ext (by
    match ax with
    | ⟨0, _⟩ => exact (rhs_q_0 _ _).trans hk
    | ⟨1, _⟩ => exact rhs_q_1 _ _)
  rw [el, er]

/-! ### The scores: `[512, 1024] × [128, 1024]`, contracting the columns of BOTH operands -/

theorem lhs_s_0 (i : S512x128.Idx) (q : dot_S512x1024_S128x1024_S512x128_1_1_0_0_n_n.contr.Idx) :
    (dot_S512x1024_S128x1024_S512x128_1_1_0_0_n_n.lhsIdx i q 0).val = (i 0).val := by
  unfold DotDims.lhsIdx
  rw [dif_neg (show ¬(0 : Fin S512x1024.rank) ∈ dot_S512x1024_S128x1024_S512x128_1_1_0_0_n_n.lhsBatch by decide), dif_pos (show (0 : Fin S512x1024.rank) ∈ dot_S512x1024_S128x1024_S512x128_1_1_0_0_n_n.lhsNonContracting by decide)]
  rfl
theorem lhs_s_1 (i : S512x128.Idx) (q : dot_S512x1024_S128x1024_S512x128_1_1_0_0_n_n.contr.Idx) :
    (dot_S512x1024_S128x1024_S512x128_1_1_0_0_n_n.lhsIdx i q 1).val = (q ⟨0, by decide⟩).val :=
  dot_S512x1024_S128x1024_S512x128_1_1_0_0_n_n.lhsIdx_val_of_single rfl i q
theorem rhs_s_0 (i : S512x128.Idx) (q : dot_S512x1024_S128x1024_S512x128_1_1_0_0_n_n.contr.Idx) :
    (dot_S512x1024_S128x1024_S512x128_1_1_0_0_n_n.rhsIdx i q 0).val = (i 1).val := by
  unfold DotDims.rhsIdx
  rw [dif_neg (show ¬(0 : Fin S128x1024.rank) ∈ dot_S512x1024_S128x1024_S512x128_1_1_0_0_n_n.rhsBatch by decide), dif_pos (show (0 : Fin S128x1024.rank) ∈ dot_S512x1024_S128x1024_S512x128_1_1_0_0_n_n.rhsNonContracting by decide)]
  rfl
theorem rhs_s_1 (i : S512x128.Idx) (q : dot_S512x1024_S128x1024_S512x128_1_1_0_0_n_n.contr.Idx) :
    (dot_S512x1024_S128x1024_S512x128_1_1_0_0_n_n.rhsIdx i q 1).val = (q ⟨0, by decide⟩).val :=
  dot_S512x1024_S128x1024_S512x128_1_1_0_0_n_n.rhsIdx_val_of_single rfl i q

/-- Entry (r, c) of the scores: query row `r` against key row `c`. -/
theorem scoreC_apply (q : FVec Ideal S512x1024 .bf16) (kc : FVec Ideal S128x1024 .bf16) (r : Fin 512) (c : Fin 128) :
    scoreC (F := Ideal) q kc (ix2 r c) = ∑ d : Fin 1024, q (ix2 r d) * kc (ix2 c d) := by
  unfold scoreC
  simp only [matmul]
  rw [Ideal.matmul_constant_zero_apply, ← Equiv.sum_comp (contrEquiv1 dot_S512x1024_S128x1024_S512x128_1_1_0_0_n_n 1024 rfl rfl).symm]
  refine Finset.sum_congr rfl fun k _ => ?_
  have hk := contrEquiv1_symm_val dot_S512x1024_S128x1024_S512x128_1_1_0_0_n_n 1024 rfl rfl k
  have el : dot_S512x1024_S128x1024_S512x128_1_1_0_0_n_n.lhsIdx (ix2 r c) ((contrEquiv1 dot_S512x1024_S128x1024_S512x128_1_1_0_0_n_n 1024 rfl rfl).symm k) = ix2 r k := funext fun ax => Fin.ext (by
    match ax with
    | ⟨0, _⟩ => exact lhs_s_0 _ _
    | ⟨1, _⟩ => exact (lhs_s_1 _ _).trans hk)
  have er : dot_S512x1024_S128x1024_S512x128_1_1_0_0_n_n.rhsIdx (ix2 r c) ((contrEquiv1 dot_S512x1024_S128x1024_S512x128_1_1_0_0_n_n 1024 rfl rfl).symm k) = ix2 c k := funext fun ax => Fin.ext (by
    match ax with
    | ⟨0, _⟩ => exact rhs_s_0 _ _
    | ⟨1, _⟩ => exact (rhs_s_1 _ _).trans hk)
  rw [el, er]

/-! ### The weighted values: `[512, 128] × [128, 1024]`, contracting the left operand's columns with the right's rows -/

theorem lhs_p_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
theorem lhs_p_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
theorem rhs_p_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
theorem rhs_p_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

/-- Entry (r, e) of a run's weighted values: the run's weights on row `r` against column `e` of its value rows. -/
theorem pvC_apply (ej : FVec Ideal S512x128 .f32) (vc : FVec Ideal S128x1024 .bf16) (r : Fin 512) (e : Fin 1024) :
    pvC (F := Ideal) ej vc (ix2 r e) = ∑ c : Fin 128, ej (ix2 r c) * vc (ix2 c e) := by
  unfold pvC
  simp only [matmul]
  rw [Ideal.matmul_constant_zero_apply, ← Equiv.sum_comp (contrEquiv1 dot_S512x128_S128x1024_S512x1024_1_0_0_1_n_n 128 rfl rfl).symm]
  refine Finset.sum_congr rfl fun k _ => ?_
  have hk := contrEquiv1_symm_val dot_S512x128_S128x1024_S512x1024_1_0_0_1_n_n 128 rfl rfl k
  have el : dot_S512x128_S128x1024_S512x1024_1_0_0_1_n_n.lhsIdx (ix2 r e) ((contrEquiv1 dot_S512x128_S128x1024_S512x1024_1_0_0_1_n_n 128 rfl rfl).symm k) = ix2 r k := funext fun ax => Fin.ext (by
    match ax with
    | ⟨0, _⟩ => exact lhs_p_0 _ _
    | ⟨1, _⟩ => exact (lhs_p_1 _ _).trans hk)
  have er : dot_S512x128_S128x1024_S512x1024_1_0_0_1_n_n.rhsIdx (ix2 r e) ((contrEquiv1 dot_S512x128_S128x1024_S512x1024_1_0_0_1_n_n 128 rfl rfl).symm k) = ix2 k e := funext fun ax => Fin.ext (by
    match ax with
    | ⟨0, _⟩ => exact (rhs_p_0 _ _).trans hk
    | ⟨1, _⟩ => exact rhs_p_1 _ _)
  rw [el, er]
  rfl

/-! ## The lane reductions -/

/-- The index of a `[512, 128]` array over row `r` with lane coordinate `c` inserted is `(r, c)`. -/
theorem lift_row (r : Fin 512) (c : Fin 128) : reduces_S512x128_S512.lift (ix1 r) c = ix2 r c :=
  funext fun ax => Fin.ext (by
    match ax with
    | ⟨0, _⟩ => rfl
    | ⟨1, _⟩ => rfl)

/-- A run's row maximum at row `r`: the fold of `max`, from the accumulator's value, over the run's 128 lanes. -/
theorem cmaxC_apply (sj : FVec Ideal S512x128 .f32) (r : Fin 512) :
    cmaxC (F := Ideal) sj (ix2 r 0)
      = (Finset.univ : Finset (Fin 128)).fold max (Ideal.ofBits .f32 0xFF800000#32) (fun c : Fin 128 => sj (ix2 r c)) := by
  unfold cmaxC
  refine (shapeCast_a_a1_apply _ shapeCasts_S512_S512x1 r 0).trans ?_
  refine (Ideal.multiReduction_maximumf_single sj 0xFF800000#32 reduces_S512x128_S512 (.inl rfl) rfl (ix1 r)).trans ?_
  exact congrArg (Finset.fold max (Ideal.ofBits .f32 0xFF800000#32) · Finset.univ) (funext fun c => congrArg sj (lift_row r c))

/-- A run's row sum of weights at row `r`: the sum over the run's 128 lanes. -/
theorem lsumC_apply (ej : FVec Ideal S512x128 .f32) (r : Fin 512) :
    lsumC (F := Ideal) ej (ix2 r 0) = ∑ c : Fin 128, ej (ix2 r c) := by
  unfold lsumC
  refine (shapeCast_a_a1_apply _ shapeCasts_S512_S512x1 r 0).trans ?_
  refine (Ideal.multiReduction_add_single ej 0x00000000#32 reduces_S512x128_S512 (.inl rfl) rfl (ix1 r)).trans ?_
  exact Finset.sum_congr rfl fun c _ => congrArg ej (lift_row r c)

/-! ## The pointwise operations and the run folds -/

/-- A run's weight at (r, c): the exponential of the score less the row's maximum. -/
theorem expC_apply (sj : FVec Ideal S512x128 .f32) (mx : FVec Ideal S512x1 .f32) (r : Fin 512) (c : Fin 128) :
    expC (F := Ideal) sj mx (ix2 r c) = Ideal.exp (sj (ix2 r c) - mx (ix2 r 0)) := by
  unfold expC
  show Ideal.exp (sj (ix2 r c) - broadcastTo S512x128 mx broadcasts_S512x1_S512x128 (ix2 r c)) = _
  rw [broadcastTo_a1_ab_apply]

/-- Run `j` of an array at (c, d) is the array at row `128 j + c`. -/
theorem rows_apply (a : FVec Ideal S2048x1024 .bf16) (j : Fin 16) (c : Fin 128) (d : Fin 1024) :
    rows (F := Ideal) a j (ix2 c d) = a (ix2 (ch j c) d) := rfl

/-- Sixteen vectors added first to last, at an index: the sixteen entries added first to last. -/
theorem vsumL16_apply {S : Shape} {φ : FTy} (a : Fin 16 → FVec Ideal S φ) (i : S.Idx) :
    vsumL16 (F := Ideal) a i = sumL16 (fun j => a j i) := rfl

/-- Sixteen vectors joined by the maximum, at an index: the sixteen entries joined first to last. -/
theorem vmaxL16_apply {S : Shape} {φ : FTy} (a : Fin 16 → FVec Ideal S φ) (i : S.Idx) :
    vmaxL16 (F := Ideal) a i = maxL16 (fun j => a j i) := rfl

/-! ## The query block and its projection -/

/-- The query block with its unit axis dropped, at (r, e). -/
theorem k0_pay6_apply (x0 : FVec Ideal S1x512x1024 .f32) (r : Fin 512) (e : Fin 1024) :
    k0_pay6 (F := Ideal) x0 (ix2 r e) = x0 (ix3 0 r e) := by
  unfold k0_pay6
  exact shapeCast_1ab_ab_apply x0 shapeCasts_S1x512x1024_S512x1024 r e

/-- The projected query at (r, d): row `r` of the query block against column `d` of the weights, plus the bias at `d`. -/
theorem k0_pay7_apply (x0 : FVec Ideal S1x512x1024 .f32) (x2 : FVec Ideal S1024x1024 .f32) (x3 : FVec Ideal S1x1024 .f32)
    (r : Fin 512) (d : Fin 1024) :
    k0_pay7 (F := Ideal) x0 x2 x3 (ix2 r d) = (∑ k : Fin 1024, x0 (ix3 0 r k) * x2 (ix2 k d)) + x3 (ix2 0 d) := by
  unfold k0_pay7
  show matmul dot_S512x1024_S1024x1024_S512x1024_1_0_0_1_n_n none (truncf .bf16 (k0_pay6 (F := Ideal) x0) bitsLt_bf16_f32) (truncf .bf16 x2 bitsLt_bf16_f32)
        (constant (F := Ideal) S512x1024 .f32 0x00000000#32) (ix2 r d)
      + broadcastTo S512x1024 (shapeCast S1x1024 x3 shapeCasts_S1x1024_S1x1024) broadcasts_S1x1024_S512x1024 (ix2 r d) = _
  rw [matmul_q_apply, broadcastTo_1b_ab_apply, shapeCast_self]
  refine congrArg (· + x3 (ix2 0 d)) (Finset.sum_congr rfl fun k _ => ?_)
  show k0_pay6 (F := Ideal) x0 (ix2 r k) * x2 (ix2 k d) = _
  rw [k0_pay6_apply]

/-! ## One query row against the sixteen runs -/

/-- The scores of query row `r` of the block against the 2048 key rows. -/
def sRow (x0 : FVec Ideal S1x512x1024 .f32) (x2 : FVec Ideal S1024x1024 .f32) (x3 : FVec Ideal S1x1024 .f32)
    (ks : FVec Ideal S2048x1024 .bf16) (r : Fin 512) : Fin 2048 → EReal :=
  fun y' => ∑ d : Fin 1024, ((∑ k : Fin 1024, x0 (ix3 0 r k) * x2 (ix2 k d)) + x3 (ix2 0 d)) * ks (ix2 y' d)

/-- The block's score at (r, c) against run `j` is the row's score at column `128 j + c`. -/
theorem sjOf_apply (x0 : FVec Ideal S1x512x1024 .f32) (x2 : FVec Ideal S1024x1024 .f32) (x3 : FVec Ideal S1x1024 .f32)
    (ks : FVec Ideal S2048x1024 .bf16) (j : Fin 16) (r : Fin 512) (c : Fin 128) :
    sjOf (F := Ideal) x0 x2 x3 ks j (ix2 r c) = sRow x0 x2 x3 ks r (ch j c) := by
  unfold sjOf sRow
  rw [scoreC_apply]
  exact Finset.sum_congr rfl fun d _ => by rw [k0_pay7_apply, rows_apply]

/-- The block's row maximum at row `r` is the row's maximum taken run by run. -/
theorem mxOf_apply (x0 : FVec Ideal S1x512x1024 .f32) (x2 : FVec Ideal S1024x1024 .f32) (x3 : FVec Ideal S1x1024 .f32)
    (ks : FVec Ideal S2048x1024 .bf16) (r : Fin 512) :
    mxOf (F := Ideal) x0 x2 x3 ks (ix2 r 0) = kMax (sRow x0 x2 x3 ks r) := by
  unfold mxOf kMax
  rw [vmaxL16_apply]
  refine congrArg maxL16 (funext fun j => ?_)
  rw [cmaxC_apply, ofBits_neg_inf]
  exact congrArg (Finset.fold max ⊥ · Finset.univ) (funext fun c => sjOf_apply x0 x2 x3 ks j r c)

/-- The block's weight at (r, c) on run `j`. -/
theorem ejOf_apply (x0 : FVec Ideal S1x512x1024 .f32) (x2 : FVec Ideal S1024x1024 .f32) (x3 : FVec Ideal S1x1024 .f32)
    (ks : FVec Ideal S2048x1024 .bf16) (j : Fin 16) (r : Fin 512) (c : Fin 128) :
    ejOf (F := Ideal) x0 x2 x3 ks j (ix2 r c)
      = Ideal.exp (sRow x0 x2 x3 ks r (ch j c) - kMax (sRow x0 x2 x3 ks r)) := by
  unfold ejOf
  rw [expC_apply, sjOf_apply, mxOf_apply]

end At

/-- ENTRY (0, r, e) OF WHAT ONE GRID POINT STORES: the softmax-weighted values of query row `r` at column `e`, in the
    run-by-run arrangement, plus the query block's entry. -/
theorem attnBlock_apply (x0 : FVec Ideal S1x512x1024 .f32) (x2 : FVec Ideal S1024x1024 .f32) (x3 : FVec Ideal S1x1024 .f32)
    (ks vs : FVec Ideal S2048x1024 .bf16) (r : Fin 512) (e : Fin 1024) :
    attnBlock (F := Ideal) x0 x2 x3 ks vs (ix3 0 r e)
      = Cert.Attn.kRow (fun y' : Fin 2048 => ∑ d : Fin 1024, ((∑ k : Fin 1024, x0 (ix3 0 r k) * x2 (ix2 k d)) + x3 (ix2 0 d)) * ks (ix2 y' d)) (fun y' : Fin 2048 => vs (ix2 y' e))
        + x0 (ix3 0 r e) := by
  show _ = kRow (At.sRow x0 x2 x3 ks r) (fun y' : Fin 2048 => vs (ix2 y' e)) + x0 (ix3 0 r e)
  unfold attnBlock
  rw [shapeCast_ab_1ab_apply]
  show vsumL16 (F := Ideal) (fun j => pvC (ejOf x0 x2 x3 ks j) (rows vs j)) (ix2 r e)
        * broadcastTo S512x1024
            (divf (broadcast S512x1 (Scalar.ofBits (F := Ideal) .f32 0x3F800000#32)) (vsumL16 (F := Ideal) fun j => lsumC (ejOf x0 x2 x3 ks j)))
            broadcasts_S512x1_S512x1024 (ix2 r e)
      + k0_pay6 (F := Ideal) x0 (ix2 r e) = _
  rw [At.k0_pay6_apply, At.broadcastTo_a1_ab_apply, At.vsumL16_apply]
  show sumL16 (fun j => pvC (F := Ideal) (ejOf x0 x2 x3 ks j) (rows vs j) (ix2 r e))
        * Ideal.div (Ideal.ofBits .f32 0x3F800000#32) (vsumL16 (F := Ideal) (fun j => lsumC (ejOf x0 x2 x3 ks j)) (ix2 r 0))
      + x0 (ix3 0 r e) = _
  rw [ofBits_one, At.vsumL16_apply]
  unfold kRow
  refine congrArg₂ (fun a b : EReal => a * Ideal.div 1 b + x0 (ix3 0 r e)) ?_ ?_
  · refine congrArg sumL16 (funext fun j => ?_)
    rw [At.pvC_apply]
    exact Finset.sum_congr rfl fun c _ => by rw [At.ejOf_apply, At.rows_apply]
  · refine congrArg sumL16 (funext fun j => ?_)
    rw [At.lsumC_apply]
    exact Finset.sum_congr rfl fun c _ => At.ejOf_apply x0 x2 x3 ks j r c

/-! ## The key and value projections

The same reading as the query's, over all 2048 rows: `[2048, 1024] × [1024, 1024]`, contracting the left operand's columns
with the right's rows. -/

namespace At

theorem lhs_kv_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_kv_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_kv_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_kv_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- Entry (y', d) of the product into the zero splat: row `y'` of the left operand against column `d` of the right. -/
theorem matmul_kv_apply (a : FVec Ideal S2048x1024 .bf16) (w : FVec Ideal S1024x1024 .bf16) (y' : Fin 2048) (d : Fin 1024) :
    matmul dot_S2048x1024_S1024x1024_S2048x1024_1_0_0_1_n_n none a w (constant (F := Ideal) S2048x1024 .f32 0x00000000#32) (ix2 y' d)
      = ∑ k : Fin 1024, a (ix2 y' k) * w (ix2 k d) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 y' d) ((contrEquiv1 dot_S2048x1024_S1024x1024_S2048x1024_1_0_0_1_n_n 1024 rfl rfl).symm k) = ix2 y' k := funext fun ax => Fin.ext (by
    match ax with
    | ⟨0, _⟩ => exact lhs_kv_0 _ _
    | ⟨1, _⟩ => exact (lhs_kv_1 _ _).trans hk)
  have er : dot_S2048x1024_S1024x1024_S2048x1024_1_0_0_1_n_n.rhsIdx (ix2 y' d) ((contrEquiv1 dot_S2048x1024_S1024x1024_S2048x1024_1_0_0_1_n_n 1024 rfl rfl).symm k) = ix2 k d := funext fun ax => Fin.ext (by
    match ax with
    | ⟨0, _⟩ => exact (rhs_kv_0 _ _).trans hk
    | ⟨1, _⟩ => exact rhs_kv_1 _ _)
  rw [el, er]

/-- The key/value source block with its unit axis dropped, at (y', k). -/
theorem k0_pay3_apply (x1 : FVec Ideal S1x2048x1024 .f32) (y' : Fin 2048) (k : Fin 1024) :
    k0_pay3 (F := Ideal) x1 (ix2 y' k) = x1 (ix3 0 y' k) := by
  unfold k0_pay3
  show shapeCast S2048x1024 x1 shapeCasts_S1x2048x1024_S2048x1024 (ix2 y' k) = _
  exact shapeCast_1ab_ab_apply x1 shapeCasts_S1x2048x1024_S2048x1024 y' k

/-- A linear layer over the 2048 rows at (y', d): row `y'` of the source against column `d` of the weights, plus the bias at `d`. -/
theorem proj_kv_apply (x1 : FVec Ideal S1x2048x1024 .f32) (w : FVec Ideal S1024x1024 .f32) (b : FVec Ideal S1x1024 .f32)
    (y' : Fin 2048) (d : Fin 1024) :
    matmul dot_S2048x1024_S1024x1024_S2048x1024_1_0_0_1_n_n none (k0_pay3 (F := Ideal) x1) (truncf .bf16 w bitsLt_bf16_f32)
        (constant (F := Ideal) S2048x1024 .f32 0x00000000#32) (ix2 y' d)
      + broadcastTo S2048x1024 (shapeCast S1x1024 b shapeCasts_S1x1024_S1x1024) broadcasts_S1x1024_S2048x1024 (ix2 y' d)
      = (∑ k : Fin 1024, x1 (ix3 0 y' k) * w (ix2 k d)) + b (ix2 0 d) := by
  rw [matmul_kv_apply, broadcastTo_1b_ab_apply, shapeCast_self]
  refine congrArg (· + b (ix2 0 d)) (Finset.sum_congr rfl fun k _ => ?_)
  show k0_pay3 (F := Ideal) x1 (ix2 y' k) * w (ix2 k d) = _
  rw [k0_pay3_apply]

end At

/-- The projected keys at (y', d). -/
theorem k0_pay4_apply (x1 : FVec Ideal S1x2048x1024 .f32) (x4 : FVec Ideal S1024x1024 .f32) (x5 : FVec Ideal S1x1024 .f32)
    (y' : Fin 2048) (d : Fin 1024) :
    k0_pay4 (F := Ideal) x1 x4 x5 (ix2 y' d) = (∑ k : Fin 1024, x1 (ix3 0 y' k) * x4 (ix2 k d)) + x5 (ix2 0 d) := by
  unfold k0_pay4
  refine (congrFun (shapeCast_self _ shapeCasts_S2048x1024_S2048x1024) (ix2 y' d)).trans ?_
  exact At.proj_kv_apply x1 x4 x5 y' d

/-- The projected values at (y', d). -/
theorem k0_pay5_apply (x1 : FVec Ideal S1x2048x1024 .f32) (x6 : FVec Ideal S1024x1024 .f32) (x7 : FVec Ideal S1x1024 .f32)
    (y' : Fin 2048) (d : Fin 1024) :
    k0_pay5 (F := Ideal) x1 x6 x7 (ix2 y' d) = (∑ k : Fin 1024, x1 (ix3 0 y' k) * x6 (ix2 k d)) + x7 (ix2 0 d) := by
  unfold k0_pay5
  refine (congrFun (shapeCast_self _ shapeCasts_S2048x1024_S2048x1024) (ix2 y' d)).trans ?_
  exact At.proj_kv_apply x1 x6 x7 y' d

end Cert.KernelIdeal.Block

end
-- ==== Proof.SoftmaxLaw.lean ====
import proofs.«152684_g18038862643479_cont_sun_m_1161_29_alg».proof.Proof.Softmax
import Mathlib.Data.Finset.Fold
import Mathlib.Data.Finset.Max
import Mathlib.Data.EReal.Operations
import Mathlib.Analysis.Complex.Exponential
import Mathlib.Algebra.BigOperators.Ring.Finset
import Mathlib.Tactic.Ring

/-!
# One softmax row: the run-by-run arrangement equals the column-by-column one

For a row `s` of 2048 real scores and a column `v` of 2048 real values, the number obtained by
first summing the unnormalised weights `exp (s y - max s)` against `v` and then multiplying once by
the reciprocal of the weights' sum is the number obtained by normalising every weight first and
summing afterwards.  Both maxima are the maximum of the row; it is attained, hence real; every
weight is then a positive real, the weights' sum a positive real `L`, both divisions are products
with `1 / L`, and what is left is distributivity in `ℝ`.
-/

noncomputable section

open scoped BigOperators

namespace Cert.Attn

open Idealize.ShloMosaic

/-! ## The two maxima -/

/-- The run-by-run maximum is below `b` exactly when every score is. -/
theorem kMax_le_iff (s : Fin 2048 → EReal) (b : EReal) : kMax s ≤ b ↔ ∀ y, s y ≤ b := by
  unfold kMax
  rw [maxL16_le_iff]
  constructor
  · intro h y
    obtain ⟨⟨j, c⟩, rfl⟩ := chEquiv.surjective y
    exact ((Finset.fold_max_le b).1 (h j)).2 c (Finset.mem_univ c)
  · intro h j
    exact (Finset.fold_max_le b).2 ⟨bot_le, fun c _ => h (ch j c)⟩

/-- The one-fold maximum is below `b` exactly when every score is. -/
theorem rMax_le_iff (s : Fin 2048 → EReal) (b : EReal) : rMax s ≤ b ↔ ∀ y, s y ≤ b := by
  unfold rMax
  rw [max_le_iff, Finset.fold_max_le]
  constructor
  · intro h y
    exact h.2.2 y (Finset.mem_univ y)
  · intro h
    exact ⟨bot_le, bot_le, fun y _ => h y⟩

/-- Both arrangements compute the same maximum: each is the least upper bound of the scores. -/
theorem kMax_eq_rMax (s : Fin 2048 → EReal) : kMax s = rMax s :=
  le_antisymm ((kMax_le_iff s _).2 ((rMax_le_iff s _).1 le_rfl))
    ((rMax_le_iff s _).2 ((kMax_le_iff s _).1 le_rfl))

/-- The maximum of a row is one of its scores. -/
theorem rMax_attained (s : Fin 2048 → EReal) : ∃ y, rMax s = s y := by
  obtain ⟨y, -, hy⟩ :=
    Finset.exists_max_image (Finset.univ : Finset (Fin 2048)) s ⟨0, Finset.mem_univ _⟩
  exact ⟨y, le_antisymm ((rMax_le_iff s _).2 fun y' => hy y' (Finset.mem_univ y'))
    ((rMax_le_iff s _).1 le_rfl y)⟩

/-- The maximum of a row of reals is real. -/
theorem rMax_isReal (s : Fin 2048 → EReal) (hs : ∀ y, IsReal (s y)) : IsReal (rMax s) := by
  obtain ⟨y, hy⟩ := rMax_attained s
  rw [hy]
  exact hs y

/-! ## Coerced reals -/

/-- A finite sum of coerced reals is the coerced sum. -/
theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The weight of a real score against a real maximum is the coerced real exponential. -/
theorem exp_sub_coe (a m : ℝ) : Ideal.exp ((a : EReal) - (m : EReal)) = ((Real.exp (a - m) : ℝ) : EReal) := by
  rw [← EReal.coe_sub, Ideal.exp_coe]

/-! ## The identity in the reals -/

/-- Multiplying the weighted sum once by `1 / L` is normalising each weight by `1 / L` first. -/
theorem real_row (e w : Fin 2048 → ℝ) (L : ℝ) :
    (∑ y, e y * w y) * (1 * (1 / L)) = ∑ y, e y * (1 / L) * w y := by
  rw [Finset.sum_mul]
  exact Finset.sum_congr rfl fun y _ => by ring

/-! ## The two arrangements, regrouped over the 2048 columns -/

/-- The run-by-run arrangement as sums over all columns. -/
theorem kRow_eq_sums (s v : Fin 2048 → EReal) :
    kRow s v = (∑ y, Ideal.exp (s y - rMax s) * v y) * Ideal.div 1 (∑ y, Ideal.exp (s y - rMax s)) := by
  unfold kRow
  rw [sumL16_eq, sumL16_eq, kMax_eq_rMax,
    ← sum_chunks (fun y => Ideal.exp (s y - rMax s) * v y),
    ← sum_chunks (fun y => Ideal.exp (s y - rMax s))]

/-! ## The law -/

/-- For real scores and real values the two arrangements of a softmax row agree. -/
theorem kRow_eq_rRow (s v : Fin 2048 → EReal) (hs : ∀ y, IsReal (s y)) (hv : ∀ y, IsReal (v y)) :
    kRow s v = rRow s v := by
  obtain ⟨m, hm⟩ := rMax_isReal s hs
  choose σ hσ using hs
  choose w hw using hv
  -- the weights' sum is a positive real
  have hLpos : 0 < ∑ y, Real.exp (σ y - m) :=
    Finset.sum_pos (fun y _ => Real.exp_pos _) ⟨0, Finset.mem_univ _⟩
  have hL : (∑ y, Real.exp (σ y - m)) ≠ 0 := ne_of_gt hLpos
  have hE : ∀ y, Ideal.exp (s y - rMax s) = ((Real.exp (σ y - m) : ℝ) : EReal) := fun y => by
    rw [hσ y, hm, exp_sub_coe]
  have hsum : ∑ y, Ideal.exp (s y - rMax s) = ((∑ y, Real.exp (σ y - m) : ℝ) : EReal) := by
    rw [← coe_sum]
    exact Finset.sum_congr rfl fun y _ => hE y
  rw [kRow_eq_sums, rRow, zero_add, hsum]
  simp only [Ideal.div_coe hL]
  have hk : ∑ y, Ideal.exp (s y - rMax s) * v y = ((∑ y, Real.exp (σ y - m) * w y : ℝ) : EReal) := by
    rw [← coe_sum]
    exact Finset.sum_congr rfl fun y _ => by rw [hE y, hw y, EReal.coe_mul]
  have hr : ∑ y, Ideal.exp (s y - rMax s) * ((1 / ∑ y', Real.exp (σ y' - m) : ℝ) : EReal) * v y
      = ((∑ y, Real.exp (σ y - m) * (1 / ∑ y', Real.exp (σ y' - m)) * w y : ℝ) : EReal) := by
    rw [← coe_sum]
    exact Finset.sum_congr rfl fun y _ => by rw [hE y, hw y, EReal.coe_mul, EReal.coe_mul]
  rw [hk, hr, ← EReal.coe_one, ← EReal.coe_mul, ← EReal.coe_mul, real_row]

end Cert.Attn

end
-- ==== Proof.KernelValue.lean ====
/-
  The kernel's result array is the attention layer `G` of its arguments, when every argument entry is a real number.
  The two scratch buffers hold, after any point of batch `n`, the key and value projections of batch `n` of `y`
  (stored at the batch's first point, untouched by its other three): by induction over the points. So what a point
  writes back is, entry by entry, the kernel's run-by-run arrangement of one softmax row (`kRow`) of the scores of its
  query row against the batch's keys, weighted over the batch's values, plus the query entry; over real entries that
  arrangement is the reference's (`kRow_eq_rRow`), which is `G` at that entry. The eight output blocks tile the array.
-/
import proofs.«152684_g18038862643479_cont_sun_m_1161_29_alg».proof.Proof.KernelArrays
import proofs.«152684_g18038862643479_cont_sun_m_1161_29_alg».proof.Proof.KernelBlockAt
import proofs.«152684_g18038862643479_cont_sun_m_1161_29_alg».proof.Proof.SoftmaxLaw

set_option maxRecDepth 16384

noncomputable section

open scoped BigOperators

namespace Cert.KernelIdeal.AttnValue

open Cert.KernelIdeal Cert.KernelIdeal.Gen Cert.KernelIdeal.Block Cert.KernelIdeal.Arrays
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

/-! ## The arguments as plain arrays of extended reals -/

abbrev aX (c : Dev nD) : SX.Idx → EReal := m ((c : Thread nD τ).loc main_arg0)
abbrev aY (c : Dev nD) : SX.Idx → EReal := m ((c : Thread nD τ).loc main_arg1)
abbrev aWq (c : Dev nD) : SW.Idx → EReal := m ((c : Thread nD τ).loc main_arg2)
abbrev abq (c : Dev nD) : SB.Idx → EReal := m ((c : Thread nD τ).loc main_arg3)
abbrev aWk (c : Dev nD) : SW.Idx → EReal := m ((c : Thread nD τ).loc main_arg4)
abbrev abk (c : Dev nD) : SB.Idx → EReal := m ((c : Thread nD τ).loc main_arg5)
abbrev aWv (c : Dev nD) : SW.Idx → EReal := m ((c : Thread nD τ).loc main_arg6)
abbrev abv (c : Dev nD) : SB.Idx → EReal := m ((c : Thread nD τ).loc main_arg7)

/-- Every entry of every argument is a real number. -/
def RealArgs (c : Dev nD) : Prop :=
  (∀ i, IsReal (aX m c i)) ∧ (∀ i, IsReal (aY m c i)) ∧ (∀ i, IsReal (aWq m c i)) ∧ (∀ i, IsReal (abq m c i))
  ∧ (∀ i, IsReal (aWk m c i)) ∧ (∀ i, IsReal (abk m c i)) ∧ (∀ i, IsReal (aWv m c i)) ∧ (∀ i, IsReal (abv m c i))

/-- A linear layer of real arrays is real, -/
theorem real_lin {a : SX.Idx → EReal} {w : SW.Idx → EReal} {b : SB.Idx → EReal} (ha : ∀ i, IsReal (a i)) (hw : ∀ i, IsReal (w i))
    (hb : ∀ i, IsReal (b i)) (n : Fin 2) (r : Fin 2048) (d : Fin 1024) : IsReal (lin a w b n r d) :=
  (IsReal.sum _ _ fun k _ => (ha _).mul (hw _)).add (hb _)

/-- and so is a score. -/
theorem real_score {x y : SX.Idx → EReal} {wq wk : SW.Idx → EReal} {bq bk : SB.Idx → EReal} (hx : ∀ i, IsReal (x i))
    (hy : ∀ i, IsReal (y i)) (hwq : ∀ i, IsReal (wq i)) (hwk : ∀ i, IsReal (wk i)) (hbq : ∀ i, IsReal (bq i)) (hbk : ∀ i, IsReal (bk i))
    (n : Fin 2) (r y' : Fin 2048) : IsReal (score x y wq wk bq bk n r y') :=
  IsReal.sum _ _ fun d _ => (real_lin hx hwq hbq n r d).mul (real_lin hy hwk hbk n y' d)

/-! ## The scratch buffers after each point -/

/-- At a batch's first point the scratch buffers are left holding the batch's key and value projections, -/
theorem first_val (c : Dev nD) (t : Fin cfg0.N) (h0 : t.val % 4 = 0) (y' : Fin 2048) (d : Fin 1024) :
    (outsAt0 m c t.val t.isLt).2.1 (ix2 y' d) = lin (aY m c) (aWk m c) (abk m c) (bOf t) y' d
    ∧ (outsAt0 m c t.val t.isLt).2.2 (ix2 y' d) = lin (aY m c) (aWv m c) (abv m c) (bOf t) y' d := by
  obtain ⟨h1, h2⟩ := scratch_first m c t h0
  rw [h1, h2, k0_pay4_apply, k0_pay5_apply]
  unfold lin
  constructor
  · simp only [yblk_apply, wkb_apply, bkb_apply]
  · simp only [yblk_apply, wvb_apply, bvb_apply]

/-- and they hold them after every point of the batch. -/
theorem scratch_val (c : Dev nD) : ∀ (n : ℕ) (hn : n < cfg0.N) (y' : Fin 2048) (d : Fin 1024),
    (outsAt0 m c n hn).2.1 (ix2 y' d) = lin (aY m c) (aWk m c) (abk m c) (bOf ⟨n, hn⟩) y' d
    ∧ (outsAt0 m c n hn).2.2 (ix2 y' d) = lin (aY m c) (aWv m c) (abv m c) (bOf ⟨n, hn⟩) y' d
  | 0, hn, y', d => first_val m c ⟨0, hn⟩ rfl y' d
  | n + 1, hn, y', d => by
    by_cases h0 : (n + 1) % 4 = 0
    · exact first_val m c ⟨n + 1, hn⟩ h0 y' d
    · obtain ⟨h1, h2⟩ := scratch_next m c n hn h0
      have hb : bOf ⟨n + 1, hn⟩ = bOf ⟨n, Nat.lt_of_succ_lt hn⟩ := Fin.ext (by show (n + 1) / 4 = n / 4; omega)
      rw [h1, h2, hb]
      exact scratch_val c n (Nat.lt_of_succ_lt hn) y' d

/-! ## One entry of what a point writes back -/

/-- Entry (r, e) of the block point `t` writes is `G` at (batch, 512·block + r, e). -/
theorem block_val (c : Dev nD) (hR : RealArgs m c) (t : Fin cfg0.N) (r : Fin 512) (e : Fin 1024) :
    attnBlock (F := Ideal) (xblk m c t) (wqb m c t) (bqb m c t) (outsAt0 m c t.val t.isLt).2.1 (outsAt0 m c t.val t.isLt).2.2
        (ix3 (0 : Fin 1) r e)
      = G (aX m c) (aY m c) (aWq m c) (aWk m c) (aWv m c) (abq m c) (abk m c) (abv m c) (ix3 (bOf t) (rowOf t r) e) := by
  obtain ⟨hx, hy, hwq, hbq, hwk, hbk, hwv, hbv⟩ := hR
  refine (attnBlock_apply (xblk m c t) (wqb m c t) (bqb m c t) (outsAt0 m c t.val t.isLt).2.1 (outsAt0 m c t.val t.isLt).2.2 r e).trans ?_
  have hs : (fun y' : Fin 2048 => ∑ d : Fin 1024, ((∑ k : Fin 1024, xblk m c t (ix3 0 r k) * wqb m c t (ix2 k d)) + bqb m c t (ix2 0 d))
        * (outsAt0 m c t.val t.isLt).2.1 (ix2 y' d))
      = fun y' => score (aX m c) (aY m c) (aWq m c) (aWk m c) (abq m c) (abk m c) (bOf t) (rowOf t r) y' := by
    funext y'
    unfold score
    refine Finset.sum_congr rfl fun d _ => ?_
    rw [(scratch_val m c t.val t.isLt y' d).1, bqb_apply]
    simp only [xblk_apply, wqb_apply]
    rfl
  have hv : (fun y' : Fin 2048 => (outsAt0 m c t.val t.isLt).2.2 (ix2 y' e))
      = fun y' => lin (aY m c) (aWv m c) (abv m c) (bOf t) y' e :=
    funext fun y' => (scratch_val m c t.val t.isLt y' e).2
  rw [hs, hv, kRow_eq_rRow _ _ (fun y' => real_score hx hy hwq hwk hbq hbk _ _ y') (fun y' => real_lin hy hwv hbv _ y' _), xblk_apply]
  rfl

/-! ## From the blocks to the array -/

/-- WHAT POINT `t` WRITES BACK is block `t` of `G` of the arguments. -/
theorem flushed_eq (c : Dev nD) (hR : RealArgs m c) (t : Fin cfg0.N) :
    (dats m 0 c).flushed 8 t = ((cfg0.win 8).blk t).view.read (Elt Ideal) (G (aX m c) (aY m c) (aWq m c) (aWk m c) (aWv m c) (abq m c) (abk m c) (abv m c)) := by
  obtain ⟨e0, e1, e2⟩ := idx8 t
  rw [Cert.KernelIdeal.Value.flushed8, out_eq]
  funext j
  have hj0 : (j 0).val < 1 := (j 0).isLt
  have he : ((cfg0.win 8).blk t).view.emb j = ix3 (bOf t) (rowOf t (j 1)) (j 2) := by
    funext a; apply Fin.ext
    match a with
    | ⟨0, _⟩ => show win0_8.index t (0 : Fin 3) * 1 + 1 * (j 0).val = t.val / 4; rw [e0]; omega
    | ⟨1, _⟩ => show win0_8.index t (1 : Fin 3) * 512 + 1 * (j 1).val = 512 * (t.val % 4) + (j 1).val; rw [e1]; omega
    | ⟨2, _⟩ => show win0_8.index t (2 : Fin 3) * 1024 + 1 * (j 2).val = (j 2).val; rw [e2]; omega
  have hj : j = ix3 (0 : Fin 1) (j 1) (j 2) := by
    funext a
    match a with
    | ⟨0, _⟩ => exact Fin.ext (by show (j 0).val = 0; omega)
    | ⟨1, _⟩ => rfl
    | ⟨2, _⟩ => rfl
  show attnBlock (F := Ideal) (xblk m c t) (wqb m c t) (bqb m c t) (outsAt0 m c t.val t.isLt).2.1 (outsAt0 m c t.val t.isLt).2.2 j
    = G (aX m c) (aY m c) (aWq m c) (aWk m c) (aWv m c) (abq m c) (abk m c) (abv m c) (((cfg0.win 8).blk t).view.emb j)
  rw [he]
  exact (congrArg _ hj).trans (block_val m c hR t (j 1) (j 2))

/-- An index of the array is in point `t`'s block iff each coordinate is in the block's range on its axis. -/
theorem mem_blk (t : Fin cfg0.N) (i : S2x2048x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v3).slice (win0_8.rect t)).set ↔ _
  rw [View.set_slice_whole, Rect.mem_set_unit]
  exact Iff.rfl

/-- Every index is in the block of point 4·batch + row / 512. -/
theorem covered (i : S2x2048x1024.Idx) : ∃ t : Fin cfg0.N, (cfg0.win 8).flush t = true ∧ i ∈ ((cfg0.win 8).blk t).view.set := by
  have hi0 : (i 0).val < 2 := (i 0).isLt
  have hi1 : (i 1).val < 2048 := (i 1).isLt
  have hi2 : (i 2).val < 1024 := (i 2).isLt
  have hN : cfg0.N = 8 := N_0
  let t : Fin cfg0.N := ⟨4 * (i 0).val + (i 1).val / 512, by omega⟩
  obtain ⟨e0, e1, e2⟩ := idx8 t
  have ht : t.val = 4 * (i 0).val + (i 1).val / 512 := rfl
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; rw [e0, ht]; omega
  | ⟨1, _⟩ => show win0_8.index t (1 : Fin 3) * 512 ≤ (i 1).val ∧ (i 1).val < win0_8.index t (1 : Fin 3) * 512 + 512; rw [e1, ht]; omega
  | ⟨2, _⟩ => show win0_8.index t (2 : Fin 3) * 1024 ≤ (i 2).val ∧ (i 2).val < win0_8.index t (2 : Fin 3) * 1024 + 1024; rw [e2]; omega

/-- THE RESULT ARRAY after the run is `G` of the arguments. -/
theorem final (c : Dev nD) (hR : RealArgs m c) : (dats m 0 c).arrAt 8 cfg0.N = G (aX m c) (aY m c) (aWq m c) (aWk m c) (aWv m c) (abq m c) (abk m c) (abv m c) :=
  (dats m 0 c).arrAt_eq_of_cover 8 (G (aX m c) (aY m c) (aWq m c) (aWk m c) (aWv m c) (abq m c) (abk m c) (abv m c)) (fun t _ => flushed_eq m c hR t) covered

/-- The run, read: the result array at `G` of the arguments, the arguments unchanged. -/
theorem run (hR : ∀ c, RealArgs m c) : θ_run defs (onTc (τ := τ) (main (F := Ideal))) ⟨m, fun _ => 0, ρ⟩ fun r => ∀ c : Dev nD,
      r.2.mem ((c : Thread nD τ).loc main_v3) = G (aX m c) (aY m c) (aWq m c) (aWk m c) (aWv m c) (abq m c) (abk m c) (abv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hR c)), (h c).2⟩)
    (Cert.KernelIdeal.Value.run_blocks m ρ)

end Cert.KernelIdeal.AttnValue

end
-- ==== Proof.RefValue.lean ====
import proofs.«152684_g18038862643479_cont_sun_m_1161_29_alg».proof.Proof.Gen.ReferenceIdeal.Read
import proofs.«152684_g18038862643479_cont_sun_m_1161_29_alg».proof.Proof.Softmax
import Idealize.ShloMosaic.PureOps.Reduce
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## The linear layers

Each of the three projections is a contraction over the last axis of the activations against the first axis of the
weights, plus the bias broadcast along the two leading axes. -/

/-- The query projection at (n, r, d). -/
theorem v3_eq_lin (x0 : (⟨S2x2048x1024, .f32⟩ : BufTy).Contents (Elt Ideal)) (x2 : (⟨S1024x1024, .f32⟩ : BufTy).Contents (Elt Ideal))
    (x3 : (⟨S1024, .f32⟩ : BufTy).Contents (Elt Ideal)) (n : Fin 2) (r : Fin 2048) (d : Fin 1024) :
    val_main_v3 (F := Ideal) x0 x2 x3 (ix3 n r d) = Cert.Attn.lin x0 x2 x3 n r d := by
  have el : ∀ k : Fin 1024, lidx_main_v0 (ix3 n r d) k = ix3 n r k := fun k =>
    funext fun a => Fin.ext (by match a with | ⟨0, _⟩ => rfl | ⟨1, _⟩ => rfl | ⟨2, _⟩ => rfl)
  have er : ∀ k : Fin 1024, ridx_main_v0 (ix3 n r d) k = ix2 k d := fun k =>
    funext fun a => Fin.ext (by match a with | ⟨0, _⟩ => rfl | ⟨1, _⟩ => rfl)
  have eb : idx_main_v1 (idx_main_v2 (ix3 n r d)) = ix1 d :=
    funext fun a => Fin.ext (by match a with | ⟨0, _⟩ => rfl)
  rw [val_main_v3_apply, val_main_v0_apply, val_main_v2_apply, val_main_v1_apply]
  simp only [el, er, eb, Ideal.addf_def]
  rfl

/-- The key projection at (n, r, d). -/
theorem v7_eq_lin (x1 : (⟨S2x2048x1024, .f32⟩ : BufTy).Contents (Elt Ideal)) (x4 : (⟨S1024x1024, .f32⟩ : BufTy).Contents (Elt Ideal))
    (x5 : (⟨S1024, .f32⟩ : BufTy).Contents (Elt Ideal)) (n : Fin 2) (r : Fin 2048) (d : Fin 1024) :
    val_main_v7 (F := Ideal) x1 x4 x5 (ix3 n r d) = Cert.Attn.lin x1 x4 x5 n r d := by
  have el : ∀ k : Fin 1024, lidx_main_v4 (ix3 n r d) k = ix3 n r k := fun k =>
    funext fun a => Fin.ext (by match a with | ⟨0, _⟩ => rfl | ⟨1, _⟩ => rfl | ⟨2, _⟩ => rfl)
  have er : ∀ k : Fin 1024, ridx_main_v4 (ix3 n r d) k = ix2 k d := fun k =>
    funext fun a => Fin.ext (by match a with | ⟨0, _⟩ => rfl | ⟨1, _⟩ => rfl)
  have eb : idx_main_v5 (idx_main_v6 (ix3 n r d)) = ix1 d :=
    funext fun a => Fin.ext (by match a with | ⟨0, _⟩ => rfl)
  rw [val_main_v7_apply, val_main_v4_apply, val_main_v6_apply, val_main_v5_apply]
  simp only [el, er, eb, Ideal.addf_def]
  rfl

/-- The value projection at (n, r, d). -/
theorem v11_eq_lin (x1 : (⟨S2x2048x1024, .f32⟩ : BufTy).Contents (Elt Ideal)) (x6 : (⟨S1024x1024, .f32⟩ : BufTy).Contents (Elt Ideal))
    (x7 : (⟨S1024, .f32⟩ : BufTy).Contents (Elt Ideal)) (n : Fin 2) (r : Fin 2048) (d : Fin 1024) :
    val_main_v11 (F := Ideal) x1 x6 x7 (ix3 n r d) = Cert.Attn.lin x1 x6 x7 n r d := by
  have el : ∀ k : Fin 1024, lidx_main_v8 (ix3 n r d) k = ix3 n r k := fun k =>
    funext fun a => Fin.ext (by match a with | ⟨0, _⟩ => rfl | ⟨1, _⟩ => rfl | ⟨2, _⟩ => rfl)
  have er : ∀ k : Fin 1024, ridx_main_v8 (ix3 n r d) k = ix2 k d := fun k =>
    funext fun a => Fin.ext (by match a with | ⟨0, _⟩ => rfl | ⟨1, _⟩ => rfl)
  have eb : idx_main_v9 (idx_main_v10 (ix3 n r d)) = ix1 d :=
    funext fun a => Fin.ext (by match a with | ⟨0, _⟩ => rfl)
  rw [val_main_v11_apply, val_main_v8_apply, val_main_v10_apply, val_main_v9_apply]
  simp only [el, er, eb, Ideal.addf_def]
  rfl

/-! ## The scores and the row maximum -/

/-- The score of query row (n, r) against key row (n, y). -/
theorem v12_eq_score (x0 x1 : (⟨S2x2048x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (n : Fin 2) (r y : Fin 2048) :
    val_main_v12 (F := Ideal) x0 x1 x2 x3 x4 x5 (ix3 n r y) = Cert.Attn.score x0 x1 x2 x4 x3 x5 n r y := by
  have el : ∀ k : Fin 1024, lidx_main_v12 (ix3 n r y) k = ix3 n r k := fun k =>
    funext fun a => Fin.ext (by match a with | ⟨0, _⟩ => rfl | ⟨1, _⟩ => rfl | ⟨2, _⟩ => rfl)
  have er : ∀ k : Fin 1024, ridx_main_v12 (ix3 n r y) k = ix3 n y k := fun k =>
    funext fun a => Fin.ext (by match a with | ⟨0, _⟩ => rfl | ⟨1, _⟩ => rfl | ⟨2, _⟩ => rfl)
  rw [val_main_v12_apply]
  simp only [el, er, v3_eq_lin, v7_eq_lin]
  rfl

/-- The reduced axis is the last one: the source index over (n, r) with coordinate k inserted is (n, r, k). -/
theorem lift_ix2 (h : S2x2048x2048.Reduces [2] S2x2048) (n : Fin 2) (r : Fin 2048) (k : Fin 2048) :
    h.lift (ix2 n r) k = ix3 n r k :=
  funext fun a => Fin.ext (by
    match a with
    | ⟨0, _⟩ => rfl
    | ⟨1, _⟩ => rfl
    | ⟨2, _⟩ => rfl)

/-- The maximum over a row of scores, joined with minus infinity once more. -/
theorem v15_eq_rMax (x0 x1 : (⟨S2x2048x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (n : Fin 2) (r : Fin 2048) :
    val_main_v15 (F := Ideal) x0 x1 x2 x3 x4 x5 (ix2 n r)
      = Cert.Attn.rMax (fun y => Cert.Attn.score x0 x1 x2 x4 x3 x5 n r y) := by
  have h : S2x2048x2048.Reduces [2] S2x2048 := by decide
  rw [val_main_v15_apply, val_main_v14_apply, val_main_cst_0_apply]
  unfold val_main_v13
  rw [Host.reduce_eq_fold_single FloatOps.maximumf _ _ _ h _ (ix2 n r), val_main_cst_apply]
  simp only [Ideal.ofBits_def, Cert.Attn.ofBits_neg_inf, Ideal.maximumf_def]
  unfold Cert.Attn.rMax
  refine congrArg (max ⊥) ?_
  show Finset.fold max ⊥ (fun k : Fin 2048 => val_main_v12 (F := Ideal) x0 x1 x2 x3 x4 x5 (h.lift (ix2 n r) k)) Finset.univ = _
  simp only [lift_ix2, v12_eq_score]

/-! ## The weights, their sum, and the weighted values -/

/-- A weight: the exponential of a score less the row's maximum. -/
theorem v19_eq_exp (x0 x1 : (⟨S2x2048x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (n : Fin 2) (r y : Fin 2048) :
    val_main_v19 (F := Ideal) x0 x1 x2 x3 x4 x5 (ix3 n r y)
      = Ideal.exp (Cert.Attn.score x0 x1 x2 x4 x3 x5 n r y
          - Cert.Attn.rMax (fun y' => Cert.Attn.score x0 x1 x2 x4 x3 x5 n r y')) := by
  have em : idx_main_v16 (idx_main_v17 (ix3 n r y)) = ix2 n r :=
    funext fun a => Fin.ext (by match a with | ⟨0, _⟩ => rfl | ⟨1, _⟩ => rfl)
  rw [val_main_v19_apply, val_main_v18_apply, val_main_v17_apply, val_main_v16_apply, em, v12_eq_score, v15_eq_rMax]
  rfl

/-- The sum of a row's weights, from zero. -/
theorem v20_eq_sum (x0 x1 : (⟨S2x2048x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (n : Fin 2) (r : Fin 2048) :
    val_main_v20 (F := Ideal) x0 x1 x2 x3 x4 x5 (ix2 n r)
      = 0 + ∑ y : Fin 2048, Ideal.exp (Cert.Attn.score x0 x1 x2 x4 x3 x5 n r y
          - Cert.Attn.rMax (fun y' => Cert.Attn.score x0 x1 x2 x4 x3 x5 n r y')) := by
  have ei : ∀ k : Fin 2048, idx_main_v20 (ix2 n r) k = ix3 n r k := fun k =>
    funext fun a => Fin.ext (by match a with | ⟨0, _⟩ => rfl | ⟨1, _⟩ => rfl | ⟨2, _⟩ => rfl)
  rw [val_main_v20_apply, val_main_cst_1_apply]
  simp only [ei, v19_eq_exp, Ideal.ofBits_def, Ideal.ofBits_zero_f32]

/-- A normalised weight: the weight divided by the row's sum of weights. -/
theorem v23_eq_div (x0 x1 : (⟨S2x2048x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (n : Fin 2) (r y : Fin 2048) :
    val_main_v23 (F := Ideal) x0 x1 x2 x3 x4 x5 (ix3 n r y)
      = Ideal.div (Ideal.exp (Cert.Attn.score x0 x1 x2 x4 x3 x5 n r y
          - Cert.Attn.rMax (fun y' => Cert.Attn.score x0 x1 x2 x4 x3 x5 n r y')))
        (0 + ∑ y'' : Fin 2048, Ideal.exp (Cert.Attn.score x0 x1 x2 x4 x3 x5 n r y''
          - Cert.Attn.rMax (fun y' => Cert.Attn.score x0 x1 x2 x4 x3 x5 n r y'))) := by
  have es : idx_main_v21 (idx_main_v22 (ix3 n r y)) = ix2 n r :=
    funext fun a => Fin.ext (by match a with | ⟨0, _⟩ => rfl | ⟨1, _⟩ => rfl)
  rw [val_main_v23_apply, val_main_v22_apply, val_main_v21_apply, es, v19_eq_exp, v20_eq_sum]
  rfl

/-! ## The reference is the specification -/

/-- The reference program's result is softmax(q kᵀ) v + x at every index. -/
theorem val_eq_G (x0 x1 : (⟨S2x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) :
    val_main_v25 (F := Ideal) x0 x1 x2 x3 x4 x5 x6 x7 = Cert.Attn.G x0 x1 x2 x4 x6 x3 x5 x7 := by
  funext i
  obtain ⟨n, r, e, rfl⟩ : ∃ n r e, i = ix3 n r e := ⟨i 0, i 1, i 2, eq_ix3 i⟩
  have el : ∀ k : Fin 2048, lidx_main_v24 (ix3 n r e) k = ix3 n r k := fun k =>
    funext fun a => Fin.ext (by match a with | ⟨0, _⟩ => rfl | ⟨1, _⟩ => rfl | ⟨2, _⟩ => rfl)
  have er : ∀ k : Fin 2048, ridx_main_v24 (ix3 n r e) k = ix3 n k e := fun k =>
    funext fun a => Fin.ext (by match a with | ⟨0, _⟩ => rfl | ⟨1, _⟩ => rfl | ⟨2, _⟩ => rfl)
  rw [val_main_v25_apply, val_main_v24_apply]
  simp only [el, er, v23_eq_div, v11_eq_lin, Ideal.addf_def]
  rfl

end Cert.ReferenceIdeal.RefValue

end
-- ==== Proof.Finite.lean ====
import proofs.«152684_g18038862643479_cont_sun_m_1161_29_alg».proof.Defs
import proofs.«152684_g18038862643479_cont_sun_m_1161_29_alg».proof.Proof.Gen.Pre_finite_inputs
import proofs.«152684_g18038862643479_cont_sun_m_1161_29_alg».proof.Proof.Softmax
import Idealize.ShloMosaic.Lib.ReduceAll

/-!
# From the precondition to "every input entry is a real"

The precondition is one bit: for each of the eight float inputs `x`, the conjunction over all indices `i`
of the bits `|x i| < +∞`, and the eight conjunctions joined by `and`, is 1. Over the extended reals
`|a| = max a (-a)`, so `|a| < +∞` rules out both `a = ⊤` (then `|a| = ⊤`) and `a = ⊥` (then `-a = ⊤`):
what is left is a real number.
-/

noncomputable section

namespace Cert.Attn.Finite

open Idealize.ShloMosaic Idealize.SL.Sem

/-- The single-precision pattern `0x7F800000` (sign 0, exponent all ones, fraction 0) denotes `+∞`. -/
theorem inf_pat : Ideal.ofBits .f32 0x7F800000#32 = (⊤ : EReal) := by
  simp [Ideal.ofBits, Ideal.ieee]

/-- An extended real whose absolute value `max a (-a)` is strictly below `+∞` is a real number:
    at `⊥` the absolute value is `max ⊥ ⊤ = ⊤`, at `⊤` it is `⊤`, and neither is below `⊤`. -/
theorem isReal_of_abs_lt (a : EReal)
    (h : Ideal.cmp .olt (max a (-a)) (Ideal.ofBits .f32 0x7F800000#32) = 1#1) : Cert.Attn.IsReal a := by
  rw [inf_pat] at h
  induction a using EReal.rec with
  | bot => simp [Ideal.cmp] at h
  | top => simp [Ideal.cmp] at h
  | coe r => exact ⟨r, rfl⟩

/-- The shape of rank 0 has exactly one index. -/
instance : Subsingleton Cert.Pre_finite_inputs.S_.Idx := ⟨fun a b => funext fun d => d.elim0⟩

/-- An array, of any shape, whose conjunction over all indices of the bits `|x i| < +∞` is 1 has only real
    entries: a conjunction that is 1 has every conjunct 1, and the conjunct at `i` is the comparison of
    `|x i|` with `+∞`. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
        (cmpf .olt (Host.absf x) (broadcastInDim s ![] hb (constant Cert.Pre_finite_inputs.S_ .f32 0x7F800000#32)))
        (constantI Cert.Pre_finite_inputs.S_ 1 1#1) hr hu j = 1#1) :
    ∀ i, Cert.Attn.IsReal (x i) := by
  intro i
  have h := Host.reduce_andi_all _ _ hr hu j e i
  exact isReal_of_abs_lt (x i) h

/-- Under the precondition every entry of each of the eight input arrays is a real number: the one bit is
    the `and` of eight conjunctions, so each of them is 1, and `all_real` reads each one (the shapes are
    `[2, 2048, 1024]` twice, then `[1024, 1024]` and `[1024]` alternating three times). -/
theorem real_args [hPre : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, Cert.Attn.IsReal (m ((c.tc : Thread Cert.KernelIdeal.nD Cert.KernelIdeal.τ).loc Cert.KernelIdeal.main_arg0) i))
    ∧ (∀ i, Cert.Attn.IsReal (m ((c.tc : Thread Cert.KernelIdeal.nD Cert.KernelIdeal.τ).loc Cert.KernelIdeal.main_arg1) i))
    ∧ (∀ i, Cert.Attn.IsReal (m ((c.tc : Thread Cert.KernelIdeal.nD Cert.KernelIdeal.τ).loc Cert.KernelIdeal.main_arg2) i))
    ∧ (∀ i, Cert.Attn.IsReal (m ((c.tc : Thread Cert.KernelIdeal.nD Cert.KernelIdeal.τ).loc Cert.KernelIdeal.main_arg3) i))
    ∧ (∀ i, Cert.Attn.IsReal (m ((c.tc : Thread Cert.KernelIdeal.nD Cert.KernelIdeal.τ).loc Cert.KernelIdeal.main_arg4) i))
    ∧ (∀ i, Cert.Attn.IsReal (m ((c.tc : Thread Cert.KernelIdeal.nD Cert.KernelIdeal.τ).loc Cert.KernelIdeal.main_arg5) i))
    ∧ (∀ i, Cert.Attn.IsReal (m ((c.tc : Thread Cert.KernelIdeal.nD Cert.KernelIdeal.τ).loc Cert.KernelIdeal.main_arg6) i))
    ∧ (∀ i, Cert.Attn.IsReal (m ((c.tc : Thread Cert.KernelIdeal.nD Cert.KernelIdeal.τ).loc Cert.KernelIdeal.main_arg7) i)) := by
  -- the precondition at this device, read at the one index of its rank-0 result
  have h := congrFun (hpre c) ValueIdx.ix0
  dsimp only [Cert.Pre_finite_inputs.fn, Cert.Pre_finite_inputs.fn_part1, Cert.Pre_finite_inputs.fn_part2, andi] at h
  -- an `and` of one-bit words is 1 exactly when both are: peel the eight conjunctions off, last first
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ _ _ _ h0, all_real _ _ _ _ _ h1, all_real _ _ _ _ _ h2, all_real _ _ _ _ _ h3,
    all_real _ _ _ _ _ h4, all_real _ _ _ _ _ h5, all_real _ _ _ _ _ h6, all_real _ _ _ _ _ h7⟩

end Cert.Attn.Finite
-- ==== Proof.lean ====
/-
  The certificate of a fused attention kernel against its jnp reference, over the extended reals.

  Both programs compute, for x, y : [2, 2048, 1024] and three linear layers (Wq, bq), (Wk, bk), (Wv, bv),
      q = x·Wq + bq,   k = y·Wk + bk,   v = y·Wv + bv,   out = softmax(q kᵀ)·v + x    (the softmax over the 2048 key rows).
  The reference forms softmax as exp(s − max s) / Σ exp(s − max s) and then the weighted sum of v. The kernel runs on a
  grid of (batch, block of 512 query rows): at a batch's first point it projects the batch's keys and values into two
  scratch buffers, which the batch's other points reuse; every point takes the scores in sixteen runs of 128 key rows,
  the row maximum as the runs' maxima joined, and accumulates Σ exp(s − max)·v and Σ exp(s − max) run by run, and only
  at the end multiplies the first by the reciprocal of the second. A change of float format is the identity on extended
  reals and a matrix product is an exact sum, so the two differ only in how the maximum and the sums are grouped (free:
  max and + are associative and commutative on the extended reals) and in where the division sits: (Σ e·v)·(1/L) against
  Σ (e/L)·v, which is distributivity. That law fails at the infinities, so the precondition is used: every input entry is a
  real number, hence so is every score; the maximum is attained, the weights exp(s − max) are positive reals, L is a
  positive real, and the identity holds in ℝ.

  The modules: Softmax (the specification `G` and the two arrangements of one row), SoftmaxLaw (the two arrangements agree
  on real rows), RefValue (the reference's result is `G`), KernelBlock / KernelBlockAt (what one grid point stores, and its
  entries), Pieces (the stores of one point read back as values), KernelArrays (the staged blocks against the arrays; what
  each point leaves), KernelValue (the scratch after each point; the result array is `G`), Finite (the precondition makes
  every entry real). The frames of the two kernels and the runs of the reference are the generated ones; nothing was
  rewritten between the kernel and its idealization, so that claim is `True`.
-/
import proofs.«152684_g18038862643479_cont_sun_m_1161_29_alg».proof.Defs
import proofs.«152684_g18038862643479_cont_sun_m_1161_29_alg».proof.Proof.Gen.Kernel
import proofs.«152684_g18038862643479_cont_sun_m_1161_29_alg».proof.Proof.Gen.Kernel.Skeleton
import proofs.«152684_g18038862643479_cont_sun_m_1161_29_alg».proof.Proof.Gen.Kernel.Launch
import proofs.«152684_g18038862643479_cont_sun_m_1161_29_alg».proof.Proof.Gen.Kernel.Points
import proofs.«152684_g18038862643479_cont_sun_m_1161_29_alg».proof.Proof.Gen.Kernel.Frame
import proofs.«152684_g18038862643479_cont_sun_m_1161_29_alg».proof.Proof.Gen.KernelIdeal
import proofs.«152684_g18038862643479_cont_sun_m_1161_29_alg».proof.Proof.Gen.KernelIdeal.Skeleton
import proofs.«152684_g18038862643479_cont_sun_m_1161_29_alg».proof.Proof.Gen.KernelIdeal.Launch
import proofs.«152684_g18038862643479_cont_sun_m_1161_29_alg».proof.Proof.Gen.KernelIdeal.Points
import proofs.«152684_g18038862643479_cont_sun_m_1161_29_alg».proof.Proof.Gen.KernelIdeal.Frame
import proofs.«152684_g18038862643479_cont_sun_m_1161_29_alg».proof.Proof.Gen.KernelIdeal.Value
import proofs.«152684_g18038862643479_cont_sun_m_1161_29_alg».proof.Proof.Gen.ReferenceIdeal.Run
import proofs.«152684_g18038862643479_cont_sun_m_1161_29_alg».proof.Proof.Gen.ReferenceIdeal.Read
import proofs.«152684_g18038862643479_cont_sun_m_1161_29_alg».proof.Proof.Gen.ReferenceIdeal
import proofs.«152684_g18038862643479_cont_sun_m_1161_29_alg».proof.Proof.Gen.Pre_finite_inputs
import proofs.«152684_g18038862643479_cont_sun_m_1161_29_alg».proof.Proof.KernelValue
import proofs.«152684_g18038862643479_cont_sun_m_1161_29_alg».proof.Proof.RefValue
import proofs.«152684_g18038862643479_cont_sun_m_1161_29_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eight arguments, every entry a real number, the kernel's result array and the
    reference's both end at `G` of the arguments. -/
theorem algebraic : Cert.algebraic_KernelIdeal_ReferenceIdeal := by
  intro m ρ m' ρ' hpre hagree
  have hR : ∀ c, Cert.KernelIdeal.AttnValue.RealArgs m c := fun c => Cert.Attn.Finite.real_args m hpre c
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)), Cert.KernelIdeal.AttnValue.run m ρ hR, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v25_eq, Cert.ReferenceIdeal.RefValue.val_eq_G, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
